-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x3x1024x1024 : Shape := ⟨5, ![16, 1, 3, 1024, 1024]⟩
abbrev S_ : Shape := ⟨0, ![]⟩

class Facts : Prop where
  bcast_S_S16x1x3x1024x1024 : S_.BroadcastsInDim S16x1x3x1024x1024 (![] : Fin 0 → Fin S16x1x3x1024x1024.rank)
  reducesTo_S16x1x3x1024x1024_S_d0_1_2_3_4 : S16x1x3x1024x1024.ReducesTo [0, 1, 2, 3, 4] S_
  h_S_ : 0 < S_.numel

variable [Facts]

def fn {F : FTy → Type} [FloatOps F] (main_arg0 : FVec F S16x1x3x1024x1024 .f32) : IVec S_ 1 :=
  let main_v0 : FVec F S16x1x3x1024x1024 .f32 := Host.absf main_arg0
  let main_cst : FVec F S_ .f32 := constant S_ .f32 0x7F800000#32
  let main_v1 : FVec F S16x1x3x1024x1024 .f32 := broadcastInDim S16x1x3x1024x1024 ![] bcast_S_S16x1x3x1024x1024 main_cst
  let main_v2 : IVec S16x1x3x1024x1024 1 := cmpf .olt main_v0 main_v1
  let main_c : IVec S_ 1 := constantI S_ 1 1#1
  let main_v3 : IVec S_ 1 := (fun x v => Host.reduce IntOp.andi x v reducesTo_S16x1x3x1024x1024_S_d0_1_2_3_4 h_S_) main_v2 main_c
  main_v3
-- ==== Kernel.lean ====
abbrev S16x1x3x1024x1024 : Shape := ⟨5, ![16, 1, 3, 1024, 1024]⟩
abbrev S1x1x1x1024x1024 : Shape := ⟨5, ![1, 1, 1, 1024, 1024]⟩
abbrev S1x1x1024x1024 : Shape := ⟨4, ![1, 1, 1024, 1024]⟩
abbrev S16x1024 : Shape := ⟨2, ![16, 1024]⟩
abbrev S8x1x1x128x1024 : Shape := ⟨5, ![8, 1, 1, 128, 1024]⟩
abbrev S1x1x128x1024 : Shape := ⟨4, ![1, 1, 128, 1024]⟩
abbrev S8x1024 : Shape := ⟨2, ![8, 1024]⟩
abbrev S128x1024 : Shape := ⟨2, ![128, 1024]⟩
abbrev S1x1x1x128x1024 : Shape := ⟨5, ![1, 1, 1, 128, 1024]⟩
abbrev S1024 : Shape := ⟨1, ![1024]⟩
abbrev S1x1024 : Shape := ⟨2, ![1, 1024]⟩
abbrev S_ : Shape := ⟨0, ![]⟩
abbrev S16x1x1024x1024 : Shape := ⟨4, ![16, 1, 1024, 1024]⟩
abbrev S8x1x128x1024 : Shape := ⟨4, ![8, 1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16x1x3x1024x1024, .f32⟩
  | .hbm, ⟨1, _⟩ => ⟨S1x1x1x1024x1024, .f32⟩
  | .hbm, ⟨2, _⟩ => ⟨S1x1x1024x1024, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16x1x1024x1024, .f32⟩
  | .local _ .vmem, ⟨0, _⟩ => ⟨S8x1x1x128x1024, .f32⟩
  | .local _ .vmem, ⟨1, _⟩ => ⟨S8x1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1x1x128x1024, .f32⟩
  | .local _ .vmem, ⟨9, _⟩ => ⟨S8x1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1024, .f32⟩
  | .local _ .vmem, ⟨13, _⟩ => ⟨S1x1024, .f32⟩
  | .local _ .vmem, ⟨14, _⟩ => ⟨S8x1x128x1024, .f32⟩
  | .local _ .vmem, ⟨15, _⟩ => ⟨S8x1x128x1024, .f32⟩
  | _, _ => ⟨S16x1x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x1x1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S16x1x3x1024x1024_S1x1x1x1024x1024_0_0_2_0_0 : S16x1x3x1024x1024.Slices ![0, 0, 2, 0, 0] S1x1x1x1024x1024
  shapeCasts_S1x1x1x1024x1024_S1x1x1024x1024 : S1x1x1x1024x1024.ShapeCasts S1x1x1024x1024
  inb_S8x1024_S8x1024_0_0 : ∀ a, (![0, 0] : Fin 2 → Nat) a + S8x1024.size a ≤ S8x1024.size a
  h_S8x1024 : 0 < S8x1024.numel
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  inb_S8x1x1x128x1024_S1x1x1x128x1024_0_0_0_0_0 : ∀ a, (![0, 0, 0, 0, 0] : Fin 5 → Nat) a + S1x1x1x128x1024.size a ≤ S8x1x1x128x1024.size a
  h_S1x1x1x128x1024 : 0 < S1x1x1x128x1024.numel
  shapeCasts_S1x1x1x128x1024_S128x1024 : S1x1x1x128x1024.ShapeCasts S128x1024
  reduces_S128x1024_S1024 : S128x1024.Reduces [0] S1024
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1x1024 : S1024.ShapeCasts S1x1024
  inb_S8x1x1x128x1024_S1x1x1x128x1024_1_0_0_0_0 : ∀ a, (![1, 0, 0, 0, 0] : Fin 5 → Nat) a + S1x1x1x128x1024.size a ≤ S8x1x1x128x1024.size a
  inb_S8x1024_S1x1024_1_0 : ∀ a, (![1, 0] : Fin 2 → Nat) a + S1x1024.size a ≤ S8x1024.size a
  inb_S8x1x1x128x1024_S1x1x1x128x1024_2_0_0_0_0 : ∀ a, (![2, 0, 0, 0, 0] : Fin 5 → Nat) a + S1x1x1x128x1024.size a ≤ S8x1x1x128x1024.size a
  inb_S8x1024_S1x1024_2_0 : ∀ a, (![2, 0] : Fin 2 → Nat) a + S1x1024.size a ≤ S8x1024.size a
  inb_S8x1x1x128x1024_S1x1x1x128x1024_3_0_0_0_0 : ∀ a, (![3, 0, 0, 0, 0] : Fin 5 → Nat) a + S1x1x1x128x1024.size a ≤ S8x1x1x128x1024.size a
  inb_S8x1024_S1x1024_3_0 : ∀ a, (![3, 0] : Fin 2 → Nat) a + S1x1024.size a ≤ S8x1024.size a
  inb_S8x1x1x128x1024_S1x1x1x128x1024_4_0_0_0_0 : ∀ a, (![4, 0, 0, 0, 0] : Fin 5 → Nat) a + S1x1x1x128x1024.size a ≤ S8x1x1x128x1024.size a
  inb_S8x1024_S1x1024_4_0 : ∀ a, (![4, 0] : Fin 2 → Nat) a + S1x1024.size a ≤ S8x1024.size a
  inb_S8x1x1x128x1024_S1x1x1x128x1024_5_0_0_0_0 : ∀ a, (![5, 0, 0, 0, 0] : Fin 5 → Nat) a + S1x1x1x128x1024.size a ≤ S8x1x1x128x1024.size a
  inb_S8x1024_S1x1024_5_0 : ∀ a, (![5, 0] : Fin 2 → Nat) a + S1x1024.size a ≤ S8x1024.size a
  inb_S8x1x1x128x1024_S1x1x1x128x1024_6_0_0_0_0 : ∀ a, (![6, 0, 0, 0, 0] : Fin 5 → Nat) a + S1x1x1x128x1024.size a ≤ S8x1x1x128x1024.size a
  inb_S8x1024_S1x1024_6_0 : ∀ a, (![6, 0] : Fin 2 → Nat) a + S1x1024.size a ≤ S8x1024.size a
  inb_S8x1x1x128x1024_S1x1x1x128x1024_7_0_0_0_0 : ∀ a, (![7, 0, 0, 0, 0] : Fin 5 → Nat) a + S1x1x1x128x1024.size a ≤ S8x1x1x128x1024.size a
  inb_S8x1024_S1x1024_7_0 : ∀ a, (![7, 0] : Fin 2 → Nat) a + S1x1024.size a ≤ S8x1024.size a
  reducesTo_S16x1024_S1024_d0 : S16x1024.ReducesTo [0] S1024
  h_S_ : 0 < S_.numel
  bcast_S1024_S1x1024_1 : S1024.BroadcastsInDim S1x1024 (![1] : Fin 1 → Fin S1x1024.rank)
  inb_S1x1024_S1x1024_0_0 : ∀ a, (![0, 0] : Fin 2 → Nat) a + S1x1024.size a ≤ S1x1024.size a
  shapeCasts_S1x1024_S1x1024 : S1x1024.ShapeCasts S1x1024
  broadcasts_S1x1024_S128x1024 : S1x1024.Broadcasts S128x1024
  inb_S8x1x128x1024_S1x1x128x1024_0_0_0_0 : ∀ a, (![0, 0, 0, 0] : Fin 4 → Nat) a + S1x1x128x1024.size a ≤ S8x1x128x1024.size a
  shapeCasts_S128x1024_S1x1x128x1024 : S128x1024.ShapeCasts S1x1x128x1024
  inb_S8x1x128x1024_S1x1x128x1024_1_0_0_0 : ∀ a, (![1, 0, 0, 0] : Fin 4 → Nat) a + S1x1x128x1024.size a ≤ S8x1x128x1024.size a
  inb_S8x1x128x1024_S1x1x128x1024_2_0_0_0 : ∀ a, (![2, 0, 0, 0] : Fin 4 → Nat) a + S1x1x128x1024.size a ≤ S8x1x128x1024.size a
  inb_S8x1x128x1024_S1x1x128x1024_3_0_0_0 : ∀ a, (![3, 0, 0, 0] : Fin 4 → Nat) a + S1x1x128x1024.size a ≤ S8x1x128x1024.size a
  inb_S8x1x128x1024_S1x1x128x1024_4_0_0_0 : ∀ a, (![4, 0, 0, 0] : Fin 4 → Nat) a + S1x1x128x1024.size a ≤ S8x1x128x1024.size a
  inb_S8x1x128x1024_S1x1x128x1024_5_0_0_0 : ∀ a, (![5, 0, 0, 0] : Fin 4 → Nat) a + S1x1x128x1024.size a ≤ S8x1x128x1024.size a
  inb_S8x1x128x1024_S1x1x128x1024_6_0_0_0 : ∀ a, (![6, 0, 0, 0] : Fin 4 → Nat) a + S1x1x128x1024.size a ≤ S8x1x128x1024.size a
  inb_S8x1x128x1024_S1x1x128x1024_7_0_0_0 : ∀ a, (![7, 0, 0, 0] : Fin 4 → Nat) a + S1x1x128x1024.size a ≤ S8x1x128x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x1x128x1024.size a ≤ S16x1x3x1024x1024.size a
  hwx0_0 : ∀ i : grid0.Coords, EltTy.bits .f32 = 32 ∨ (Rect.block (s := S16x1x3x1024x1024) S8x1x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S1x1x1024x1024.size a
  hwx0_1 : ∀ i : grid0.Coords, EltTy.bits .f32 = 32 ∨ (Rect.block (s := S1x1x1024x1024) S1x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x1024.size a
  hwx0_2 : ∀ i : grid0.Coords, EltTy.bits .f32 = 32 ∨ (Rect.block (s := S16x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1x1x128x1024.size a ≤ S16x1x3x1024x1024.size a
  hwx1_0 : ∀ i : grid1.Coords, EltTy.bits .f32 = 32 ∨ (Rect.block (s := S16x1x3x1024x1024) S8x1x1x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x1024.size a ≤ S1x1x1024x1024.size a
  hwx1_1 : ∀ i : grid1.Coords, EltTy.bits .f32 = 32 ∨ (Rect.block (s := S1x1x1024x1024) S1x1x128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x1x128x1024.size a ≤ S16x1x1024x1024.size a
  hwx1_4 : ∀ i : grid1.Coords, EltTy.bits .f32 = 32 ∨ (Rect.block (s := S16x1x1024x1024) S8x1x128x1024.size (cc1_transform_4 i) (hinb1_4 i)).WholeWords (EltTy.packing .f32)

variable [Facts₀]

abbrev win0_0 : Pipeline.Window sig grid0 :=
  Pipeline.Window.ofSpec (Memref.whole main_arg0) S8x1x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8x1x1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S8x1x128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x1x3x1024x1024 : Shape := ⟨5, ![16, 1, 3, 1024, 1024]⟩
abbrev S16x1x1x1024x1024 : Shape := ⟨5, ![16, 1, 1, 1024, 1024]⟩
abbrev S16x1x1024x1024 : Shape := ⟨4, ![16, 1, 1024, 1024]⟩
abbrev S16384x1024 : Shape := ⟨2, ![16384, 1024]⟩
abbrev S16384 : Shape := ⟨1, ![16384]⟩
abbrev S16384x1 : Shape := ⟨2, ![16384, 1]⟩
abbrev S_ : Shape := ⟨0, ![]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x1x3x1024x1024, .f32⟩
  | .hbm, ⟨1, _⟩ => ⟨S16x1x1x1024x1024, .f32⟩
  | .hbm, ⟨2, _⟩ => ⟨S16x1x1024x1024, .f32⟩
  | .hbm, ⟨3, _⟩ => ⟨S16384x1024, .f32⟩
  | .hbm, ⟨4, _⟩ => ⟨S16x1x1x1024x1024, .f32⟩
  | .hbm, ⟨5, _⟩ => ⟨S16x1x1024x1024, .f32⟩
  | .hbm, ⟨6, _⟩ => ⟨S16384x1024, .f32⟩
  | .hbm, ⟨7, _⟩ => ⟨S16384x1024, .f32⟩
  | .hbm, ⟨8, _⟩ => ⟨S16384, .i32⟩
  | .hbm, ⟨9, _⟩ => ⟨S16384x1, .i32⟩
  | .hbm, ⟨10, _⟩ => ⟨S_, .i32⟩
  | .hbm, ⟨11, _⟩ => ⟨S16384x1, .i32⟩
  | .hbm, ⟨12, _⟩ => ⟨S16384x1, .i1⟩
  | .hbm, ⟨13, _⟩ => ⟨S16384x1024, .i1⟩
  | .hbm, ⟨14, _⟩ => ⟨S16384x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .i1⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16x1x1024x1024, .f32⟩
  | _, _ => ⟨S16x1x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S16x1x3x1024x1024_S16x1x1x1024x1024_0_0_0_0_0 : S16x1x3x1024x1024.Slices ![0, 0, 0, 0, 0] S16x1x1x1024x1024
  shapeCasts_S16x1x1x1024x1024_S16x1x1024x1024 : S16x1x1x1024x1024.ShapeCasts S16x1x1024x1024
  shapeCasts_S16x1x1024x1024_S16384x1024 : S16x1x1024x1024.ShapeCasts S16384x1024
  slices_S16x1x3x1024x1024_S16x1x1x1024x1024_0_0_2_0_0 : S16x1x3x1024x1024.Slices ![0, 0, 2, 0, 0] S16x1x1x1024x1024
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16x1x1024x1024 : S16384x1024.ShapeCasts S16x1x1024x1024

variable [Facts₀]

class Facts : Prop extends Facts₀ where

variable [Facts]
-- ==== Proof.LibMinMax.lean ====
/-
  General facts about minima and maxima over a finite index set in the extended reals.

  A fold of `min` from a start value `a` over all of a finite type is `min a` of the infimum (and dually for `max`):
  the form a reduction is printed in (a start value, then every element in some order) against the order-free
  infimum of the complete lattice. The two words for +∞ and -∞ denote the lattice's top and bottom, so a reduction
  started from them is the infimum or supremum itself. Last, a one-axis minimum reduction read at a result index is
  the fold of `min` over that axis's coordinates.
-/
import Idealize.ShloMosaic.PureOps.Ideal.Laws
import Mathlib.Order.CompleteLattice.Finset

noncomputable section

namespace Cert.LibMinMax

open Idealize.ShloMosaic

/-- A fold of `min` from `a` over a finite set is `min a` of the set's infimum. -/
theorem fold_min_eq {ι : Type*} (s : Finset ι) (a : EReal) (f : ι → EReal) : s.fold min a f = min a (s.inf f) := by
  classical
  induction s using Finset.induction_on with
  | empty => simp
  | insert i s hi ih => rw [Finset.fold_insert hi, ih, Finset.inf_insert]; exact min_left_comm _ _ _

/-- A fold of `max` from `a` over a finite set is `max a` of the set's supremum. -/
theorem fold_max_eq {ι : Type*} (s : Finset ι) (a : EReal) (f : ι → EReal) : s.fold max a f = max a (s.sup f) := by
  classical
  induction s using Finset.induction_on with
  | empty => simp
  | insert i s hi ih => rw [Finset.fold_insert hi, ih, Finset.sup_insert]; exact max_left_comm _ _ _

/-- Over a whole finite type: `min a` of the infimum. -/
theorem fold_min_univ {ι : Type*} [Fintype ι] (a : EReal) (f : ι → EReal) :
    (Finset.univ : Finset ι).fold min a f = min a (⨅ k, f k) := by
  rw [fold_min_eq, Finset.inf_univ_eq_iInf]

/-- Over a whole finite type: `max a` of the supremum. -/
theorem fold_max_univ {ι : Type*} [Fintype ι] (a : EReal) (f : ι → EReal) :
    (Finset.univ : Finset ι).fold max a f = max a (⨆ k, f k) := by
  rw [fold_max_eq, Finset.sup_univ_eq_iSup]

/-- The word of +∞ denotes the top of the extended reals. -/
theorem ofBits_posInf : Ideal.ofBits .f32 0x7F800000#32 = (⊤ : EReal) := by
  simp [Ideal.ofBits, Ideal.ieee]

/-- The word of -∞ denotes the bottom of the extended reals. -/
theorem ofBits_negInf : Ideal.ofBits .f32 0xFF800000#32 = (⊥ : EReal) := by
  simp [Ideal.ofBits, Ideal.ieee]

/-- A float minimum reduction over one axis, read at the ideal values: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinMax

end
-- ==== Proof.HostStretch.lean ====
/-
  What the host operations around the two kernels put in the buffers each kernel is entered with.

  Before the reduction kernel the host slices batch 0's frame 2 out of the argument array and drops a unit axis. Between
  the kernels it reduces each of the reduction kernel's two [16, 1024] result arrays over the batch axis, a minimum from
  +∞ and a maximum from -∞, and lays each result out as one row. Nothing writes the argument array.
-/
import proofs.«171341_j63909113364757_2_alg».proof.Proof.KernelIdealRun
import proofs.«171341_j63909113364757_2_alg».proof.Proof.LibMinMax
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Host

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

section AnyValues

variable {F : FTy → Type} [FloatOps F]
variable (m : (ℓ : Loc nD τ sig) → Buf (Elt F) ℓ) (ρ : Dev nD → PrngReg)

/-- The reduction kernel is entered with the argument array as launched. -/
theorem V1_arg0 (c : Dev nD) : V1 m ρ c main_arg0 = m ((c : Thread nD τ).loc main_arg0) := by
  show StableHlo.after hostOps0 (W0 m ρ c) (Proc.devRef .tc main_arg0) = _
  after_results

/-- and with the sliced buffer at batch 0's frame 2, its unit frame axis dropped. -/
theorem V1_v1 (c : Dev nD) : V1 m ρ c main_v1
    = shapeCast S1x1x1024x1024 (extractStridedSlice S1x1x1x1024x1024 ![0, 0, 2, 0, 0] (m ((c : Thread nD τ).loc main_arg0)) slices_S16x1x3x1024x1024_S1x1x1x1024x1024_0_0_2_0_0) shapeCasts_S1x1x1x1024x1024_S1x1x1024x1024 := by
  show StableHlo.after hostOps0 (W0 m ρ c) (Proc.devRef .tc main_v1) = _
  after_results
  rfl

/-- The reduction kernel leaves its two input arrays as it found them. -/
theorem V2_arg0 (c : Dev nD) : V2 m ρ c main_arg0 = V1 m ρ c main_arg0 :=
  (W2_arr m ρ c 0).trans (((dat0 (V1 m ρ) c).arrAt_in 0 rfl _).trans (A_eq0 (V1 m ρ) c 0))
theorem V2_v1 (c : Dev nD) : V2 m ρ c main_v1 = V1 m ρ c main_v1 :=
  (W2_arr m ρ c 1).trans (((dat0 (V1 m ρ) c).arrAt_in 1 rfl _).trans (A_eq0 (V1 m ρ) c 1))

/-- The normalising kernel is entered with the argument array as launched, -/
theorem V3_arg0 (c : Dev nD) : V3 m ρ c main_arg0 = m ((c : Thread nD τ).loc main_arg0) := by
  show StableHlo.after hostOps1 (W2 m ρ c) (Proc.devRef .tc main_arg0) = _
  after_results
  exact (V2_arg0 m ρ c).trans (V1_arg0 m ρ c)

/-- the sliced buffer as the reduction kernel was entered with it, -/
theorem V3_v1 (c : Dev nD) : V3 m ρ c main_v1 = V1 m ρ c main_v1 := by
  show StableHlo.after hostOps1 (W2 m ρ c) (Proc.devRef .tc main_v1) = _
  after_results
  exact V2_v1 m ρ c

/-- the first one-row buffer at the minimum over the batches of the reduction kernel's first result array, -/
theorem V3_v4 (c : Dev nD) : V3 m ρ c main_v4
    = broadcastInDim S1x1024 ![1] bcast_S1024_S1x1024_1
        (Host.reduce FloatOps.minimumf ((dat0 (V1 m ρ) c).arrAt 2 cfg0.N : (⟨S16x1024, .f32⟩ : BufTy).Contents (Elt F))
          (constant S_ .f32 0x7F800000#32) reducesTo_S16x1024_S1024_d0 h_S_) := by
  show StableHlo.after hostOps1 (W2 m ρ c) (Proc.devRef .tc main_v4) = _
  after_results
  rw [W2_arr m ρ c 2]

/-- and the second at the maximum over the batches of its second. -/
theorem V3_v6 (c : Dev nD) : V3 m ρ c main_v6
    = broadcastInDim S1x1024 ![1] bcast_S1024_S1x1024_1
        (Host.reduce FloatOps.maximumf ((dat0 (V1 m ρ) c).arrAt 3 cfg0.N : (⟨S16x1024, .f32⟩ : BufTy).Contents (Elt F))
          (constant S_ .f32 0xFF800000#32) reducesTo_S16x1024_S1024_d0 h_S_) := by
  show StableHlo.after hostOps1 (W2 m ρ c) (Proc.devRef .tc main_v6) = _
  after_results
  rw [W2_arr m ρ c 3]

/-- The sliced buffer at row `h`, column `w` is the argument array at batch 0, frame 2, row `h`, column `w`. -/
theorem V1_v1_apply (c : Dev nD) (h w : Fin 1024) :
    V1 m ρ c main_v1 (ix4 (0 : Fin 1) (0 : Fin 1) h w)
      = m ((c : Thread nD τ).loc main_arg0) (ix5 (0 : Fin 16) (0 : Fin 1) (2 : Fin 3) h w) := by
  rw [V1_v1]
  refine (shapeCast_apply _ shapeCasts_S1x1x1x1024x1024_S1x1x1024x1024 (ix4 (0 : Fin 1) (0 : Fin 1) h w)
    (ix5 (0 : Fin 1) (0 : Fin 1) (0 : Fin 1) h w) ?_).trans ?_
  · rewrite [Shape.rowMajor_val_five, Shape.rowMajor_val_four]
    show ((((0 * 1 + 0) * 1 + 0) * 1024 + h.val) * 1024 + w.val) = (((0 * 1 + 0) * 1024 + h.val) * 1024 + w.val)
    omega
  · exact extractStridedSlice_apply ![0, 0, 2, 0, 0] _ slices_S16x1x3x1024x1024_S1x1x1x1024x1024_0_0_2_0_0
      (ix5 (0 : Fin 1) (0 : Fin 1) (0 : Fin 1) h w) (ix5 (0 : Fin 16) (0 : Fin 1) (2 : Fin 3) h w) (fun a => match a with
        | ⟨0, _⟩ => by show 0 = 0 + 0; omega
        | ⟨1, _⟩ => by show 0 = 0 + 0; omega
        | ⟨2, _⟩ => by show 2 = 2 + 0; omega
        | ⟨3, _⟩ => by show h.val = 0 + h.val; omega
        | ⟨4, _⟩ => by show w.val = 0 + w.val; omega)

end AnyValues

section IdealValues

variable (m : (ℓ : Loc nD τ sig) → Buf (Elt Ideal) ℓ) (ρ : Dev nD → PrngReg)

/-- The batch axis of a [16, 1024] array can be reduced away. -/
theorem reduces16 : S16x1024.Reduces [0] S1024 := by decide

/-- Inserting batch `b` on the reduced axis of column `w` gives the index `(b, w)`. -/
theorem lift16 (w : Fin 1024) (b : Fin 16) : reduces16.lift (ix1 w) b = ix2 b w := by
  funext a; match a with | ⟨0, _⟩ => rfl | ⟨1, _⟩ => rfl

/-- A minimum from +∞ over the batch axis, laid out as one row, read at column `w`: the infimum over the batches. -/
theorem rowOfMin_apply (y : S16x1024.Idx → EReal) (w : Fin 1024) :
    broadcastInDim S1x1024 ![1] bcast_S1024_S1x1024_1
      (Host.reduce (FloatOps.minimumf (F := Ideal) (φ := .f32)) y (constant (F := Ideal) S_ .f32 0x7F800000#32) reducesTo_S16x1024_S1024_d0 h_S_)
      (ix2 (0 : Fin 1) w) = ⨅ b : Fin 16, y (ix2 b w) := by
  refine (broadcastInDim_apply _ bcast_S1024_S1x1024_1 _ (ix2 (0 : Fin 1) w) (ix1 w) (fun a => match a with
    | ⟨0, _⟩ => by show w.val = if (1024 : Nat) = 1 then 0 else w.val; rw [if_neg (by decide)])).trans ?_
  rw [Host.reduce_eq_fold_single _ y _ reducesTo_S16x1024_S1024_d0 reduces16 h_S_ (ix1 w)]
  refine (Cert.LibMinMax.fold_min_univ _ _).trans ?_
  refine (congrArg (fun a => min a _) Cert.LibMinMax.ofBits_posInf).trans ?_
  refine (min_eq_right le_top).trans ?_
  exact iInf_congr fun b => congrArg y (lift16 w b)

/-- A maximum from -∞ over the batch axis, laid out as one row, read at column `w`: the supremum over the batches. -/
theorem rowOfMax_apply (y : S16x1024.Idx → EReal) (w : Fin 1024) :
    broadcastInDim S1x1024 ![1] bcast_S1024_S1x1024_1
      (Host.reduce (FloatOps.maximumf (F := Ideal) (φ := .f32)) y (constant (F := Ideal) S_ .f32 0xFF800000#32) reducesTo_S16x1024_S1024_d0 h_S_)
      (ix2 (0 : Fin 1) w) = ⨆ b : Fin 16, y (ix2 b w) := by
  refine (broadcastInDim_apply _ bcast_S1024_S1x1024_1 _ (ix2 (0 : Fin 1) w) (ix1 w) (fun a => match a with
    | ⟨0, _⟩ => by show w.val = if (1024 : Nat) = 1 then 0 else w.val; rw [if_neg (by decide)])).trans ?_
  rw [Host.reduce_eq_fold_single _ y _ reducesTo_S16x1024_S1024_d0 reduces16 h_S_ (ix1 w)]
  refine (Cert.LibMinMax.fold_max_univ _ _).trans ?_
  refine (congrArg (fun a => max a _) Cert.LibMinMax.ofBits_negInf).trans ?_
  refine (max_eq_right bot_le).trans ?_
  exact iSup_congr fun b => congrArg y (lift16 w b)

/-- So the normalising kernel's first one-row buffer holds, at column `w`, the infimum over the batches of the
    reduction kernel's first result array, -/
theorem V3_v4_apply (c : Dev nD) (y : S16x1024.Idx → EReal) (hy : (dat0 (V1 m ρ) c).arrAt 2 cfg0.N = y) (w : Fin 1024) :
    V3 m ρ c main_v4 (ix2 (0 : Fin 1) w) = ⨅ b : Fin 16, y (ix2 b w) := by
  rw [V3_v4, hy]; exact rowOfMin_apply y w

/-- and the second the supremum over the batches of its second. -/
theorem V3_v6_apply (c : Dev nD) (y : S16x1024.Idx → EReal) (hy : (dat0 (V1 m ρ) c).arrAt 3 cfg0.N = y) (w : Fin 1024) :
    V3 m ρ c main_v6 (ix2 (0 : Fin 1) w) = ⨆ b : Fin 16, y (ix2 b w) := by
  rw [V3_v6, hy]; exact rowOfMax_apply y w

end IdealValues

end Cert.KernelIdeal.Host

end
-- ==== Proof.Spec.lean ====
/-
  The specification: min-max normalisation of a frame-difference array, column by column.

  From the argument `x : [16, 1, 3, 1024, 1024]` form the value array `s[b, h, w]`: for batch 0 the difference of
  frame 2 and frame 0, `x[0,0,2,h,w] - x[0,0,0,h,w]`; for every other batch frame 0 itself, `x[b,0,0,h,w]`. A column
  `w` has a least and a greatest value over all 16 · 1024 pairs `(b, h)`; its scale is their difference, or one when the
  difference is zero. The result at `(b, 0, h, w)` is `(s[b,h,w] - least w) / scale w`.

  The least and greatest values are stated as the infimum and supremum in the complete lattice of the extended
  reals, so that any grouping of the minima and maxima (row tiles inside a batch, then batches; or all rows at
  once) is read against one definition by the universal property.
-/
import Idealize.ShloMosaic.PureOps.Ideal
import Idealize.ShloMosaic.Lib.ValueIdx

noncomputable section

namespace Cert.Norm

open Idealize.ShloMosaic Idealize.ShloMosaic.ValueIdx

/-- The argument array's contents at the ideal values. -/
abbrev Arg : Type := (⟨5, ![16, 1, 3, 1024, 1024]⟩ : Shape).Idx → EReal

/-- The value array: batch 0 holds frame 2 minus frame 0, every other batch holds frame 0. -/
def sval (x : Arg) (b : Fin 16) (h w : Fin 1024) : EReal :=
  if b.val = 0 then x (ix5 (0 : Fin 16) (0 : Fin 1) (2 : Fin 3) h w) - x (ix5 (0 : Fin 16) (0 : Fin 1) (0 : Fin 3) h w)
  else x (ix5 b (0 : Fin 1) (0 : Fin 3) h w)

/-- The least value of batch `b`'s rows in column `w`. -/
def rowMin (x : Arg) (b : Fin 16) (w : Fin 1024) : EReal := ⨅ h : Fin 1024, sval x b h w
/-- The greatest value of batch `b`'s rows in column `w`. -/
def rowMax (x : Arg) (b : Fin 16) (w : Fin 1024) : EReal := ⨆ h : Fin 1024, sval x b h w

/-- The least value of column `w` over every batch and row. -/
def colMin (x : Arg) (w : Fin 1024) : EReal := ⨅ b : Fin 16, rowMin x b w
/-- The greatest value of column `w` over every batch and row. -/
def colMax (x : Arg) (w : Fin 1024) : EReal := ⨆ b : Fin 16, rowMax x b w

/-- The scale from a least value `lo` and a greatest value `hi`: their difference, or one where that is zero. -/
def scaleOf (lo hi : EReal) : EReal :=
  Scalar.select (FloatOps.cmpf (F := Ideal) (φ := .f32) .oeq (hi - lo) (Ideal.ofBits .f32 0x00000000#32))
    (Ideal.ofBits .f32 0x3F800000#32) (hi - lo)

/-- One normalised value: `(v - lo) / scale`. -/
def normOf (v lo hi : EReal) : EReal := Ideal.div (v - lo) (scaleOf lo hi)

/-- A tile's value array, as a grid point sees it: `x0` is the point's block of frame 0 for its eight batches, `x1` the same
    rows of batch 0's frame 2, `g` the point's group. Row 0 of group 0 is the difference; everything else passes frame 0
    through. (Batch `8 g + p` is batch 0 exactly when `g = 0` and `p = 0`.) -/
def tileVal (g : Nat) (x0 : (⟨5, ![8, 1, 1, 128, 1024]⟩ : Shape).Idx → EReal) (x1 : (⟨4, ![1, 1, 128, 1024]⟩ : Shape).Idx → EReal)
    (p : Fin 8) (r : Fin 128) (w : Fin 1024) : EReal :=
  if p.val = 0 then
    (if g = 0 then x1 (ix4 (0 : Fin 1) (0 : Fin 1) r w) - x0 (ix5 (0 : Fin 8) (0 : Fin 1) (0 : Fin 1) r w)
      else x0 (ix5 (0 : Fin 8) (0 : Fin 1) (0 : Fin 1) r w))
  else x0 (ix5 p (0 : Fin 1) (0 : Fin 1) r w)

/-- The result array `[16, 1, 1024, 1024]`. -/
def result (x : Arg) : (⟨4, ![16, 1, 1024, 1024]⟩ : Shape).Idx → EReal :=
  fun j => normOf (sval x ⟨(j 0).val, (j 0).isLt⟩ ⟨(j 2).val, (j 2).isLt⟩ ⟨(j 3).val, (j 3).isLt⟩)
    (colMin x ⟨(j 3).val, (j 3).isLt⟩) (colMax x ⟨(j 3).val, (j 3).isLt⟩)

end Cert.Norm

end
-- ==== Proof.Region0PiecesA.lean ====
/-
  What a RESETTING grid point (the first row tile of a group) of the reduction kernel leaves in its two running-extreme blocks, read at a row and a column.
-/
import proofs.«171341_j63909113364757_2_alg».proof.Proof.Spec
import proofs.«171341_j63909113364757_2_alg».proof.Proof.KernelIdealFrame
import proofs.«171341_j63909113364757_2_alg».proof.Proof.LibMinMax
import Idealize.ShloMosaic.Lib.Pipeline.Value
import Idealize.ShloMosaic.PureOps.Ideal.Laws
import Idealize.ShloMosaic.Lib.ValueLayout

noncomputable section

namespace Cert.KernelIdeal.Pieces0A

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Norm

/-! ## Reading the piece list at a row and a column -/

section Pieces
variable {Val : EltTy → Type} [∀ e, Nonempty (Val e)]

/-- The buffer index (row k, column w) is the row-k rectangle's own index (0, w). -/
theorem row_emb (k : Fin 8) (inb : ∀ a, (![k.val, 0] : Fin 2 → Nat) a + S1x1024.size a ≤ S8x1024.size a) (w : Fin 1024) :
    (Rect.unit (s := S8x1024) ![k.val, 0] S1x1024.size inb).emb (ix2 (0 : Fin 1) w) = ix2 k w := by
  funext a
  apply Fin.ext
  match a with
  | ⟨0, _⟩ => show k.val + 1 * 0 = k.val; omega
  | ⟨1, _⟩ => show 0 + 1 * w.val = w.val; omega

/-- A store of another row does not touch row k. -/
theorem canon_skip_row (j : Nat) (inb : ∀ a, (![j, 0] : Fin 2 → Nat) a + S1x1024.size a ≤ S8x1024.size a)
    (pw : (Rect.unit (s := S8x1024) ![j, 0] S1x1024.size inb).shape.Idx → Val .f32) (L : List (View.Piece Val S8x1024 .f32))
    (k : Fin 8) (w : Fin 1024) (h : k.val ≠ j) :
    View.canon (⟨Rect.unit (s := S8x1024) ![j, 0] S1x1024.size inb, pw⟩ :: L) (ix2 k w) = View.canon L (ix2 k w) := by
  refine View.canon_cons_of_not_mem _ L fun hm => h ?_
  have hm' : ix2 k w ∈ (Rect.unit (s := S8x1024) ![j, 0] S1x1024.size inb).set := hm
  have h0 := (Rect.mem_set_unit.mp hm') (0 : Fin 2)
  have e1 : ((ix2 k w : S8x1024.Idx) (0 : Fin 2)).val = k.val := rfl
  have e2 : (![j, 0] : Fin 2 → Nat) (0 : Fin 2) = j := rfl
  have e3 : S1x1024.size (0 : Fin 2) = 1 := rfl
  rw [e1, e2, e3] at h0
  omega

/-- The store of row k leaves its payload in row k. -/
theorem canon_hit_row (j : Nat) (inb : ∀ a, (![j, 0] : Fin 2 → Nat) a + S1x1024.size a ≤ S8x1024.size a)
    (pw : (Rect.unit (s := S8x1024) ![j, 0] S1x1024.size inb).shape.Idx → Val .f32) (L : List (View.Piece Val S8x1024 .f32))
    (k : Fin 8) (w : Fin 1024) (h : k.val = j) :
    View.canon (⟨Rect.unit (s := S8x1024) ![j, 0] S1x1024.size inb, pw⟩ :: L) (ix2 k w) = pw (ix2 (0 : Fin 1) w) := by
  subst h
  rw [← row_emb k inb w]
  exact View.canon_cons_emb _ pw L _

/-- One store of the whole buffer leaves its payload. -/
theorem canon_whole (inb : ∀ a, (![0, 0] : Fin 2 → Nat) a + S8x1024.size a ≤ S8x1024.size a)
    (pw : S8x1024.Idx → Val .f32) (y : S8x1024.Idx) :
    View.canon [(⟨Rect.unit (s := S8x1024) ![0, 0] S8x1024.size inb, pw⟩ : View.Piece Val S8x1024 .f32)] y = pw y := by
  have hz : (![0, 0] : Fin 2 → Nat) = fun _ => 0 := funext fun a => by fin_cases a <;> rfl
  rw [View.canon_unit_zero hz]

/-- A load of row k after the stores L reads, at column w, what they leave at (k, w). -/
theorem readCov_row {sig' : RefSig} {κ : Kind} {sp : Space} (v : View sig' κ sp S8x1024 .f32) (L : List (View.Piece Val S8x1024 .f32))
    (j : Nat) (hj : j < 8) (inb : ∀ a, (![j, 0] : Fin 2 → Nat) a + S1x1024.size a ≤ S8x1024.size a) (w : Fin 1024) :
    v.readCov L (Rect.unit (s := S8x1024) ![j, 0] S1x1024.size inb).toLoadRect (ix2 (0 : Fin 1) w) = View.canon L (ix2 (⟨j, hj⟩ : Fin 8) w) := by
  rw [View.readCov_eq_canon']
  exact congrArg (View.canon L) (row_emb ⟨j, hj⟩ inb w)

end Pieces

/-! ## The payloads at a column -/

/-- The column index w with row k put back on the reduced axis is (k, w). -/
theorem lift_row (h : S128x1024.Reduces [0] S1024) (w : Fin 1024) (k : Fin (S128x1024.size 0)) :
    h.lift (ix1 w) k = ix2 (⟨k.val, k.isLt⟩ : Fin 128) w := by
  funext c; apply Fin.ext
  fin_cases c <;> rfl

/-- A lane minimum of a [128,1024] tile over its rows, combined with a running value that is +∞, read at column w:
    the tile's least value in that column. -/
theorem rowMin_apply (T : FVec Ideal S128x1024 .f32) (prev : Vec Ideal S1x1024 .f32)
    (h1 : S1x1024.ShapeCasts S1024) (h2 : S1024.ShapeCasts S1x1024) (hr : S128x1024.Reduces [0] S1024)
    (hφ : FKind.Formats .f32) (hacc : (0x7F800000#32 : BitVec 32) = FKind.minimumf.neutral .f32 hφ) (u : Fin 1) (w : Fin 1024)
    (hprev : prev (ix2 (0 : Fin 1) w) = (⊤ : EReal)) :
    (shapeCast S1x1024 (minimumf (shapeCast S1024 prev h1)
        (multiReduction .minimumf [0] S1024 T 0x7F800000#32 hr hφ hacc)) h2 : FVec Ideal S1x1024 .f32) (ix2 u w)
      = ⨅ r : Fin 128, T (ix2 r w) := by
  refine (shapeCast_a_1a_apply _ h2 u w).trans ?_
  rw [minimumf_apply]
  refine (congrArg₂ min ((shapeCast_1a_a_apply prev h1 w).trans hprev) ?_).trans (min_eq_right le_top)
  rw [Cert.LibMinMax.multiReduction_minimumf_single, Cert.LibMinMax.fold_min_univ]
  show min (Ideal.ofBits .f32 0x7F800000#32) _ = _
  rw [Cert.LibMinMax.ofBits_posInf, min_eq_right le_top]
  exact iInf_congr fun k => congrArg T (lift_row hr w k)

/-- A [1,1,1,128,1024] block viewed as a [128,1024] tile reads (r, w) at (0, 0, 0, r, w). -/
theorem tile5_apply {α : Type} (v : S1x1x1x128x1024.Idx → α) (h : S1x1x1x128x1024.ShapeCasts S128x1024) (r : Fin 128) (w : Fin 1024) :
    shapeCast S128x1024 v h (ix2 r w) = v (ix5 (0 : Fin 1) (0 : Fin 1) (0 : Fin 1) r w) :=
  shapeCast_apply v h _ _ (by
    rw [Shape.rowMajor_val_five, Shape.rowMajor_val_two]
    show (((0 * 1 + 0) * 1 + 0) * 128 + r.val) * 1024 + w.val = r.val * 1024 + w.val
    omega)

/-- A [1,1,128,1024] block viewed as a [128,1024] tile reads (r, w) at (0, 0, r, w). -/
theorem tile4_apply {α : Type} (v : S1x1x128x1024.Idx → α) (h : S1x1x128x1024.ShapeCasts S128x1024) (r : Fin 128) (w : Fin 1024) :
    shapeCast S128x1024 v h (ix2 r w) = v (ix4 (0 : Fin 1) (0 : Fin 1) r w) :=
  shapeCast_apply v h _ _ (by
    rw [Shape.rowMajor_val_four, Shape.rowMajor_val_two]
    show ((0 * 1 + 0) * 128 + r.val) * 1024 + w.val = r.val * 1024 + w.val
    omega)

/-- The load of batch row k of the first block reads (0, 0, 0, r, w) at (k, 0, 0, r, w). -/
theorem load_x0 (arg2 : Memref sig .tc .vmem S8x1x1x128x1024 .f32) (harg2 : arg2.IsWhole) (x0 : Vec Ideal S8x1x1x128x1024 .f32)
    (k : Nat) (hk : k < 8) (inb : ∀ a, (![k, 0, 0, 0, 0] : Fin 5 → Nat) a + S1x1x1x128x1024.size a ≤ S8x1x1x128x1024.size a)
    (r : Fin 128) (w : Fin 1024) :
    View.readAt (Elt Ideal) arg2.view (Rect.unit (s := S8x1x1x128x1024) ![k, 0, 0, 0, 0] S1x1x1x128x1024.size inb).toLoadRect
        (harg2.unread x0) (ix5 (0 : Fin 1) (0 : Fin 1) (0 : Fin 1) r w)
      = x0 (ix5 (⟨k, hk⟩ : Fin 8) (0 : Fin 1) (0 : Fin 1) r w) := by
  rw [View.readAt_eq_ld, harg2.read_unread]
  refine congrArg x0 (funext fun a => Fin.ext ?_)
  match a with
  | ⟨0, _⟩ => show k + 1 * 0 = k; omega
  | ⟨1, _⟩ => show 0 + 1 * 0 = 0; omega
  | ⟨2, _⟩ => show 0 + 1 * 0 = 0; omega
  | ⟨3, _⟩ => show 0 + 1 * r.val = r.val; omega
  | ⟨4, _⟩ => show 0 + 1 * w.val = w.val; omega

/-- The load of the whole second block reads its contents. -/
theorem load_x1 (arg3 : Memref sig .tc .vmem S1x1x128x1024 .f32) (harg3 : arg3.IsWhole) (x1 : Vec Ideal S1x1x128x1024 .f32)
    (inb : ∀ a, (![0, 0, 0, 0] : Fin 4 → Nat) a + S1x1x128x1024.size a ≤ S1x1x128x1024.size a)
    (r : Fin 128) (w : Fin 1024) :
    View.readAt (Elt Ideal) arg3.view (Rect.unit (s := S1x1x128x1024) ![0, 0, 0, 0] S1x1x128x1024.size inb).toLoadRect
        (harg3.unread x1) (ix4 (0 : Fin 1) (0 : Fin 1) r w)
      = x1 (ix4 (0 : Fin 1) (0 : Fin 1) r w) := by
  rw [View.readAt_eq_ld, harg3.read_unread]
  refine congrArg x1 (funext fun a => Fin.ext ?_)
  match a with
  | ⟨0, _⟩ => show 0 + 1 * 0 = 0; omega
  | ⟨1, _⟩ => show 0 + 1 * 0 = 0; omega
  | ⟨2, _⟩ => show 0 + 1 * r.val = r.val; omega
  | ⟨3, _⟩ => show 0 + 1 * w.val = w.val; omega

/-- Row 0's tile at (r, w): the difference of the two blocks in group 0, the first block elsewhere. -/
theorem tile0_apply (i : grid0.Coords) (v3 : Vec Ideal S1x1x128x1024 .f32) (v5 : Vec Ideal S1x1x1x128x1024 .f32)
    (r : Fin 128) (w : Fin 1024) :
    k0_pay7 i v3 v5 (ix2 r w)
      = if (i 0).val = 0 then v3 (ix4 (0 : Fin 1) (0 : Fin 1) r w) - v5 (ix5 (0 : Fin 1) (0 : Fin 1) (0 : Fin 1) r w)
        else v5 (ix5 (0 : Fin 1) (0 : Fin 1) (0 : Fin 1) r w) := by
  have hlt : (i 0).val < 2 := (i 0).isLt
  unfold k0_pay7
  show (Scalar.select (IntOp.cmpi .eq (BitVec.ofNat 32 (i 0).val) 0#32)
      (subf (shapeCast S128x1024 v3 _) (shapeCast S128x1024 v5 _)) (shapeCast S128x1024 v5 _) : FVec Ideal S128x1024 .f32) (ix2 r w) = _
  rw [select_eq0 _ hlt]
  by_cases h0 : (i 0).val = 0
  · rw [if_pos h0, if_pos h0, subf_apply, tile4_apply, tile5_apply]
  · rw [if_neg h0, if_neg h0, tile5_apply]

/-- The reset's block is +∞ everywhere. -/
theorem reset_top (y : S8x1024.Idx) : (k0_pay5 (F := Ideal)) y = (⊤ : EReal) := by
  unfold k0_pay5
  exact Cert.LibMinMax.ofBits_posInf

/-! ## Each row's stored payload at a column, when the running value it loads is +∞ -/

/-- Row 0: the least value of row 0's tile (the difference in group 0, the first block elsewhere). -/
theorem min_row0 (i : grid0.Coords) (v3 : Vec Ideal S1x1x128x1024 .f32) (v5 : Vec Ideal S1x1x1x128x1024 .f32)
    (prev : Vec Ideal S1x1024 .f32) (u : Fin 1) (w : Fin 1024) (hprev : prev (ix2 (0 : Fin 1) w) = (⊤ : EReal)) :
    k0_pay8 i v3 v5 prev (ix2 u w) = ⨅ r : Fin 128, k0_pay7 i v3 v5 (ix2 r w) := by
  unfold k0_pay8
  exact rowMin_apply _ _ _ _ _ _ _ u w hprev

/-- Row 1: its lane minimum is taken before the store's payload. -/
theorem min_row1 (v : Vec Ideal S1x1x1x128x1024 .f32) (prev : Vec Ideal S1x1024 .f32) (u : Fin 1) (w : Fin 1024)
    (hprev : prev (ix2 (0 : Fin 1) w) = (⊤ : EReal)) :
    k0_pay12 (k0_pay11 v) prev (ix2 u w) = ⨅ r : Fin 128, v (ix5 (0 : Fin 1) (0 : Fin 1) (0 : Fin 1) r w) := by
  unfold k0_pay12 k0_pay11 k0_pay10
  exact (rowMin_apply _ _ _ _ _ _ _ u w hprev).trans (iInf_congr fun r => tile5_apply _ _ r w)

theorem min_k0_pay15 (v : Vec Ideal S1x1x1x128x1024 .f32) (prev : Vec Ideal S1x1024 .f32) (u : Fin 1) (w : Fin 1024)
    (hprev : prev (ix2 (0 : Fin 1) w) = (⊤ : EReal)) :
    k0_pay15 v prev (ix2 u w) = ⨅ r : Fin 128, v (ix5 (0 : Fin 1) (0 : Fin 1) (0 : Fin 1) r w) := by
  unfold k0_pay15 k0_pay14
  exact (rowMin_apply _ _ _ _ _ _ _ u w hprev).trans (iInf_congr fun r => tile5_apply _ _ r w)

theorem min_k0_pay18 (v : Vec Ideal S1x1x1x128x1024 .f32) (prev : Vec Ideal S1x1024 .f32) (u : Fin 1) (w : Fin 1024)
    (hprev : prev (ix2 (0 : Fin 1) w) = (⊤ : EReal)) :
    k0_pay18 v prev (ix2 u w) = ⨅ r : Fin 128, v (ix5 (0 : Fin 1) (0 : Fin 1) (0 : Fin 1) r w) := by
  unfold k0_pay18 k0_pay17
  exact (rowMin_apply _ _ _ _ _ _ _ u w hprev).trans (iInf_congr fun r => tile5_apply _ _ r w)

theorem min_k0_pay21 (v : Vec Ideal S1x1x1x128x1024 .f32) (prev : Vec Ideal S1x1024 .f32) (u : Fin 1) (w : Fin 1024)
    (hprev : prev (ix2 (0 : Fin 1) w) = (⊤ : EReal)) :
    k0_pay21 v prev (ix2 u w) = ⨅ r : Fin 128, v (ix5 (0 : Fin 1) (0 : Fin 1) (0 : Fin 1) r w) := by
  unfold k0_pay21 k0_pay20
  exact (rowMin_apply _ _ _ _ _ _ _ u w hprev).trans (iInf_congr fun r => tile5_apply _ _ r w)

theorem min_k0_pay25 (v : Vec Ideal S1x1x1x128x1024 .f32) (prev : Vec Ideal S1x1024 .f32) (u : Fin 1) (w : Fin 1024)
    (hprev : prev (ix2 (0 : Fin 1) w) = (⊤ : EReal)) :
    k0_pay25 v prev (ix2 u w) = ⨅ r : Fin 128, v (ix5 (0 : Fin 1) (0 : Fin 1) (0 : Fin 1) r w) := by
  unfold k0_pay25 k0_pay24
  exact (rowMin_apply _ _ _ _ _ _ _ u w hprev).trans (iInf_congr fun r => tile5_apply _ _ r w)

theorem min_k0_pay29 (v : Vec Ideal S1x1x1x128x1024 .f32) (prev : Vec Ideal S1x1024 .f32) (u : Fin 1) (w : Fin 1024)
    (hprev : prev (ix2 (0 : Fin 1) w) = (⊤ : EReal)) :
    k0_pay29 v prev (ix2 u w) = ⨅ r : Fin 128, v (ix5 (0 : Fin 1) (0 : Fin 1) (0 : Fin 1) r w) := by
  unfold k0_pay29 k0_pay27
  exact (rowMin_apply _ _ _ _ _ _ _ u w hprev).trans (iInf_congr fun r => tile5_apply _ _ r w)

theorem min_k0_pay3 (v : Vec Ideal S1x1x1x128x1024 .f32) (prev : Vec Ideal S1x1024 .f32) (u : Fin 1) (w : Fin 1024)
    (hprev : prev (ix2 (0 : Fin 1) w) = (⊤ : EReal)) :
    k0_pay3 v prev (ix2 u w) = ⨅ r : Fin 128, v (ix5 (0 : Fin 1) (0 : Fin 1) (0 : Fin 1) r w) := by
  unfold k0_pay3 k0_pay2
  exact (rowMin_apply _ _ _ _ _ _ _ u w hprev).trans (iInf_congr fun r => tile5_apply _ _ r w)

/-- A lane maximum of a [128,1024] tile over its rows, combined with a running value that is -∞, read at column w:
    the tile's greatest value in that column. -/
theorem rowMax_apply (T : FVec Ideal S128x1024 .f32) (prev : Vec Ideal S1x1024 .f32)
    (h1 : S1x1024.ShapeCasts S1024) (h2 : S1024.ShapeCasts S1x1024) (hr : S128x1024.Reduces [0] S1024)
    (hφ : FKind.Formats .f32) (hacc : (0xFF800000#32 : BitVec 32) = FKind.maximumf.neutral .f32 hφ) (u : Fin 1) (w : Fin 1024)
    (hprev : prev (ix2 (0 : Fin 1) w) = (⊥ : EReal)) :
    (shapeCast S1x1024 (maximumf (shapeCast S1024 prev h1)
        (multiReduction .maximumf [0] S1024 T 0xFF800000#32 hr hφ hacc)) h2 : FVec Ideal S1x1024 .f32) (ix2 u w)
      = ⨆ r : Fin 128, T (ix2 r w) := by
  refine (shapeCast_a_1a_apply _ h2 u w).trans ?_
  rw [maximumf_apply]
  refine (congrArg₂ max ((shapeCast_1a_a_apply prev h1 w).trans hprev) ?_).trans (max_eq_right bot_le)
  rw [Ideal.multiReduction_maximumf_single, Cert.LibMinMax.fold_max_univ]
  show max (Ideal.ofBits .f32 0xFF800000#32) _ = _
  rw [Cert.LibMinMax.ofBits_negInf, max_eq_right bot_le]
  exact iSup_congr fun k => congrArg T (lift_row hr w k)

/-- The maximum's reset block is -∞ everywhere. -/
theorem reset_bot (y : S8x1024.Idx) : (k0_pay6 (F := Ideal)) y = (⊥ : EReal) := by
  unfold k0_pay6
  exact Cert.LibMinMax.ofBits_negInf

/-! ## Each row's stored payload for the maximum at a column, when the running value it loads is -∞ -/

/-- Row 0: the greatest value of row 0's tile. -/
theorem max_row0 (i : grid0.Coords) (v3 : Vec Ideal S1x1x128x1024 .f32) (v5 : Vec Ideal S1x1x1x128x1024 .f32)
    (prev : Vec Ideal S1x1024 .f32) (u : Fin 1) (w : Fin 1024) (hprev : prev (ix2 (0 : Fin 1) w) = (⊥ : EReal)) :
    k0_pay9 i v3 v5 prev (ix2 u w) = ⨆ r : Fin 128, k0_pay7 i v3 v5 (ix2 r w) := by
  unfold k0_pay9
  exact rowMax_apply _ _ _ _ _ _ _ u w hprev

/-- Row 1: its tile is named before the store's payload. -/
theorem max_row1 (v : Vec Ideal S1x1x1x128x1024 .f32) (prev : Vec Ideal S1x1024 .f32) (u : Fin 1) (w : Fin 1024)
    (hprev : prev (ix2 (0 : Fin 1) w) = (⊥ : EReal)) :
    k0_pay13 (k0_pay10 v) prev (ix2 u w) = ⨆ r : Fin 128, v (ix5 (0 : Fin 1) (0 : Fin 1) (0 : Fin 1) r w) := by
  unfold k0_pay13 k0_pay10
  exact (rowMax_apply _ _ _ _ _ _ _ u w hprev).trans (iSup_congr fun r => tile5_apply _ _ r w)

/-- Row 4: the maximum is taken before the store's payload, which only adds the unit axis. -/
theorem max_row4 (v : Vec Ideal S1x1x1x128x1024 .f32) (prev : Vec Ideal S1x1024 .f32) (u : Fin 1) (w : Fin 1024)
    (hprev : prev (ix2 (0 : Fin 1) w) = (⊥ : EReal)) :
    k0_pay23 (k0_pay22 v prev) (ix2 u w) = ⨆ r : Fin 128, v (ix5 (0 : Fin 1) (0 : Fin 1) (0 : Fin 1) r w) := by
  unfold k0_pay23 k0_pay22 k0_pay20
  exact (rowMax_apply _ _ _ _ _ _ _ u w hprev).trans (iSup_congr fun r => tile5_apply _ _ r w)

/-- Row 6: the lane maximum is taken before the store's payload. -/
theorem max_row6 (v : Vec Ideal S1x1x1x128x1024 .f32) (prev : Vec Ideal S1x1024 .f32) (u : Fin 1) (w : Fin 1024)
    (hprev : prev (ix2 (0 : Fin 1) w) = (⊥ : EReal)) :
    k0_pay1 (k0_pay28 v) prev (ix2 u w) = ⨆ r : Fin 128, v (ix5 (0 : Fin 1) (0 : Fin 1) (0 : Fin 1) r w) := by
  unfold k0_pay1 k0_pay28 k0_pay27
  exact (rowMax_apply _ _ _ _ _ _ _ u w hprev).trans (iSup_congr fun r => tile5_apply _ _ r w)

theorem max_k0_pay16 (v : Vec Ideal S1x1x1x128x1024 .f32) (prev : Vec Ideal S1x1024 .f32) (u : Fin 1) (w : Fin 1024)
    (hprev : prev (ix2 (0 : Fin 1) w) = (⊥ : EReal)) :
    k0_pay16 v prev (ix2 u w) = ⨆ r : Fin 128, v (ix5 (0 : Fin 1) (0 : Fin 1) (0 : Fin 1) r w) := by
  unfold k0_pay16 k0_pay14
  exact (rowMax_apply _ _ _ _ _ _ _ u w hprev).trans (iSup_congr fun r => tile5_apply _ _ r w)

theorem max_k0_pay19 (v : Vec Ideal S1x1x1x128x1024 .f32) (prev : Vec Ideal S1x1024 .f32) (u : Fin 1) (w : Fin 1024)
    (hprev : prev (ix2 (0 : Fin 1) w) = (⊥ : EReal)) :
    k0_pay19 v prev (ix2 u w) = ⨆ r : Fin 128, v (ix5 (0 : Fin 1) (0 : Fin 1) (0 : Fin 1) r w) := by
  unfold k0_pay19 k0_pay17
  exact (rowMax_apply _ _ _ _ _ _ _ u w hprev).trans (iSup_congr fun r => tile5_apply _ _ r w)

theorem max_k0_pay26 (v : Vec Ideal S1x1x1x128x1024 .f32) (prev : Vec Ideal S1x1024 .f32) (u : Fin 1) (w : Fin 1024)
    (hprev : prev (ix2 (0 : Fin 1) w) = (⊥ : EReal)) :
    k0_pay26 v prev (ix2 u w) = ⨆ r : Fin 128, v (ix5 (0 : Fin 1) (0 : Fin 1) (0 : Fin 1) r w) := by
  unfold k0_pay26 k0_pay24
  exact (rowMax_apply _ _ _ _ _ _ _ u w hprev).trans (iSup_congr fun r => tile5_apply _ _ r w)

theorem max_k0_pay4 (v : Vec Ideal S1x1x1x128x1024 .f32) (prev : Vec Ideal S1x1024 .f32) (u : Fin 1) (w : Fin 1024)
    (hprev : prev (ix2 (0 : Fin 1) w) = (⊥ : EReal)) :
    k0_pay4 v prev (ix2 u w) = ⨆ r : Fin 128, v (ix5 (0 : Fin 1) (0 : Fin 1) (0 : Fin 1) r w) := by
  unfold k0_pay4 k0_pay2
  exact (rowMax_apply _ _ _ _ _ _ _ u w hprev).trans (iSup_congr fun r => tile5_apply _ _ r w)

/-! ## What the resetting point leaves -/

/-- At a point that resets (the first row tile of a group) the running minimum of row `p`, column `w` is the tile's own
    least value in that column: the reset stores +∞ and the minimum with it changes nothing. -/
theorem out0_A_2_apply (c : Dev nD) (i : grid0.Coords) (arg2 : Memref sig .tc .vmem S8x1x1x128x1024 .f32) (harg2 : arg2.IsWhole) (arg3 : Memref sig .tc .vmem S1x1x128x1024 .f32) (harg3 : arg3.IsWhole) (arg4 : Memref sig .tc .vmem S8x1024 .f32) (harg4 : arg4.IsWhole) (arg5 : Memref sig .tc .vmem S8x1024 .f32) (harg5 : arg5.IsWhole) (hc0 : cond0_0 i)
    (x0 : Vec Ideal S8x1x1x128x1024 .f32) (x1 : Vec Ideal S1x1x128x1024 .f32) (p : Fin 8) (w : Fin 1024) :
    out0_A_2 (F := Ideal) c i arg2 harg2 arg3 harg3 arg4 harg4 arg5 harg5 hc0 x0 x1 (ix2 p w)
      = ⨅ r : Fin 128, tileVal (i 0).val x0 x1 p r w := by
  unfold out0_A_2
  rw [View.read_writes_eq_canon _ _ _ (cover0_A_2 c i arg2 harg2 arg3 harg3 arg4 harg4 arg5 harg5 hc0 x0 x1)]
  unfold kernelRun0_A
  dsimp only
  sl_unfold_words
  fin_cases p
  · -- row 0
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_skip_row 2 _ _ _ _ _ (by decide)).trans ?_
    refine (canon_skip_row 1 _ _ _ _ _ (by decide)).trans ?_
    refine (canon_hit_row 0 _ _ _ _ _ (by decide)).trans ?_
    refine (min_row0 _ _ _ _ _ _ ?hprev).trans ?_
    case hprev =>
      refine (readCov_row _ _ 0 (by decide) _ _).trans ?_
      exact (canon_whole _ _ _).trans (reset_top _)
    refine iInf_congr fun r => ?_
    refine (tile0_apply _ _ _ _ _).trans ?_
    rw [load_x1, load_x0 _ _ _ 0 (by decide)]
    rfl
  · -- row 1
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_skip_row 2 _ _ _ _ _ (by decide)).trans ?_
    refine (canon_hit_row 1 _ _ _ _ _ (by decide)).trans ?_
    refine (min_row1 _ _ _ _ ?hprev).trans ?_
    case hprev =>
      refine (readCov_row _ _ 1 (by decide) _ _).trans ?_
      refine (canon_skip_row 0 _ _ _ _ _ (by decide)).trans ?_
      exact (canon_whole _ _ _).trans (reset_top _)
    refine iInf_congr fun r => ?_
    rw [load_x0 _ _ _ 1 (by decide)]
    rfl
  · -- row 2
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_hit_row 2 _ _ _ _ _ (by decide)).trans ?_
    refine (min_k0_pay15 _ _ _ _ ?hprev).trans ?_
    case hprev =>
      refine (readCov_row _ _ 2 (by decide) _ _).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 2 (by decide)]
    rfl
  · -- row 3
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_hit_row 3 _ _ _ _ _ (by decide)).trans ?_
    refine (min_k0_pay18 _ _ _ _ ?hprev).trans ?_
    case hprev =>
      refine (readCov_row _ _ 3 (by decide) _ _).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 3 (by decide)]
    rfl
  · -- row 4
    refine (canon_skip_row 7 _ _ _ _ _ (by decide)).trans ?_
    refine (canon_skip_row 6 _ _ _ _ _ (by decide)).trans ?_
    refine (canon_skip_row 5 _ _ _ _ _ (by decide)).trans ?_
    refine (canon_hit_row 4 _ _ _ _ _ (by decide)).trans ?_
    refine (min_k0_pay21 _ _ _ _ ?hprev).trans ?_
    case hprev =>
      refine (readCov_row _ _ 4 (by decide) _ _).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 4 (by decide)]
    rfl
  · -- row 5
    refine (canon_skip_row 7 _ _ _ _ _ (by decide)).trans ?_
    refine (canon_skip_row 6 _ _ _ _ _ (by decide)).trans ?_
    refine (canon_hit_row 5 _ _ _ _ _ (by decide)).trans ?_
    refine (min_k0_pay25 _ _ _ _ ?hprev).trans ?_
    case hprev =>
      refine (readCov_row _ _ 5 (by decide) _ _).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 5 (by decide)]
    rfl
  · -- row 6
    refine (canon_skip_row 7 _ _ _ _ _ (by decide)).trans ?_
    refine (canon_hit_row 6 _ _ _ _ _ (by decide)).trans ?_
    refine (min_k0_pay29 _ _ _ _ ?hprev).trans ?_
    case hprev =>
      refine (readCov_row _ _ 6 (by decide) _ _).trans ?_
      refine (canon_skip_row 5 _ _ _ _ _ (by decide)).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 6 (by decide)]
    rfl
  · -- row 7
    refine (canon_hit_row 7 _ _ _ _ _ (by decide)).trans ?_
    refine (min_k0_pay3 _ _ _ _ ?hprev).trans ?_
    case hprev =>
      refine (readCov_row _ _ 7 (by decide) _ _).trans ?_
      refine (canon_skip_row 6 _ _ _ _ _ (by decide)).trans ?_
      refine (canon_skip_row 5 _ _ _ _ _ (by decide)).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_top _)
    refine iInf_congr fun r => ?_
    rw [load_x0 _ _ _ 7 (by decide)]
    rfl

/-- The same for the running maximum: the reset stores -∞. -/
theorem out0_A_3_apply (c : Dev nD) (i : grid0.Coords) (arg2 : Memref sig .tc .vmem S8x1x1x128x1024 .f32) (harg2 : arg2.IsWhole) (arg3 : Memref sig .tc .vmem S1x1x128x1024 .f32) (harg3 : arg3.IsWhole) (arg4 : Memref sig .tc .vmem S8x1024 .f32) (harg4 : arg4.IsWhole) (arg5 : Memref sig .tc .vmem S8x1024 .f32) (harg5 : arg5.IsWhole) (hc0 : cond0_0 i)
    (x0 : Vec Ideal S8x1x1x128x1024 .f32) (x1 : Vec Ideal S1x1x128x1024 .f32) (p : Fin 8) (w : Fin 1024) :
    out0_A_3 (F := Ideal) c i arg2 harg2 arg3 harg3 arg4 harg4 arg5 harg5 hc0 x0 x1 (ix2 p w)
      = ⨆ r : Fin 128, tileVal (i 0).val x0 x1 p r w := by
  unfold out0_A_3
  rw [View.read_writes_eq_canon _ _ _ (cover0_A_3 c i arg2 harg2 arg3 harg3 arg4 harg4 arg5 harg5 hc0 x0 x1)]
  unfold kernelRun0_A
  dsimp only
  sl_unfold_words
  fin_cases p
  · -- row 0
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_skip_row 2 _ _ _ _ _ (by decide)).trans ?_
    refine (canon_skip_row 1 _ _ _ _ _ (by decide)).trans ?_
    refine (canon_hit_row 0 _ _ _ _ _ (by decide)).trans ?_
    refine (max_row0 _ _ _ _ _ _ ?hprev).trans ?_
    case hprev =>
      refine (readCov_row _ _ 0 (by decide) _ _).trans ?_
      exact (canon_whole _ _ _).trans (reset_bot _)
    refine iSup_congr fun r => ?_
    refine (tile0_apply _ _ _ _ _).trans ?_
    rw [load_x1, load_x0 _ _ _ 0 (by decide)]
    rfl
  · -- row 1
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_skip_row 2 _ _ _ _ _ (by decide)).trans ?_
    refine (canon_hit_row 1 _ _ _ _ _ (by decide)).trans ?_
    refine (max_row1 _ _ _ _ ?hprev).trans ?_
    case hprev =>
      refine (readCov_row _ _ 1 (by decide) _ _).trans ?_
      refine (canon_skip_row 0 _ _ _ _ _ (by decide)).trans ?_
      exact (canon_whole _ _ _).trans (reset_bot _)
    refine iSup_congr fun r => ?_
    rw [load_x0 _ _ _ 1 (by decide)]
    rfl
  · -- row 2
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_skip_row 3 _ _ _ _ _ (by decide)).trans ?_
    refine (canon_hit_row 2 _ _ _ _ _ (by decide)).trans ?_
    refine (max_k0_pay16 _ _ _ _ ?hprev).trans ?_
    case hprev =>
      refine (readCov_row _ _ 2 (by decide) _ _).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 2 (by decide)]
    rfl
  · -- row 3
    refine (canon_skip_row 7 _ _ _ _ _ (by decide)).trans ?_
    refine (canon_skip_row 6 _ _ _ _ _ (by decide)).trans ?_
    refine (canon_skip_row 5 _ _ _ _ _ (by decide)).trans ?_
    refine (canon_skip_row 4 _ _ _ _ _ (by decide)).trans ?_
    refine (canon_hit_row 3 _ _ _ _ _ (by decide)).trans ?_
    refine (max_k0_pay19 _ _ _ _ ?hprev).trans ?_
    case hprev =>
      refine (readCov_row _ _ 3 (by decide) _ _).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 3 (by decide)]
    rfl
  · -- row 4
    refine (canon_skip_row 7 _ _ _ _ _ (by decide)).trans ?_
    refine (canon_skip_row 6 _ _ _ _ _ (by decide)).trans ?_
    refine (canon_skip_row 5 _ _ _ _ _ (by decide)).trans ?_
    refine (canon_hit_row 4 _ _ _ _ _ (by decide)).trans ?_
    refine (max_row4 _ _ _ _ ?hprev).trans ?_
    case hprev =>
      refine (readCov_row _ _ 4 (by decide) _ _).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 4 (by decide)]
    rfl
  · -- row 5
    refine (canon_skip_row 7 _ _ _ _ _ (by decide)).trans ?_
    refine (canon_skip_row 6 _ _ _ _ _ (by decide)).trans ?_
    refine (canon_hit_row 5 _ _ _ _ _ (by decide)).trans ?_
    refine (max_k0_pay26 _ _ _ _ ?hprev).trans ?_
    case hprev =>
      refine (readCov_row _ _ 5 (by decide) _ _).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 5 (by decide)]
    rfl
  · -- row 6
    refine (canon_skip_row 7 _ _ _ _ _ (by decide)).trans ?_
    refine (canon_hit_row 6 _ _ _ _ _ (by decide)).trans ?_
    refine (max_row6 _ _ _ _ ?hprev).trans ?_
    case hprev =>
      refine (readCov_row _ _ 6 (by decide) _ _).trans ?_
      refine (canon_skip_row 5 _ _ _ _ _ (by decide)).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 6 (by decide)]
    rfl
  · -- row 7
    refine (canon_hit_row 7 _ _ _ _ _ (by decide)).trans ?_
    refine (max_k0_pay4 _ _ _ _ ?hprev).trans ?_
    case hprev =>
      refine (readCov_row _ _ 7 (by decide) _ _).trans ?_
      refine (canon_skip_row 6 _ _ _ _ _ (by decide)).trans ?_
      refine (canon_skip_row 5 _ _ _ _ _ (by decide)).trans ?_
      refine (canon_skip_row 4 _ _ _ _ _ (by decide)).trans ?_
      refine (canon_skip_row 3 _ _ _ _ _ (by decide)).trans ?_
      refine (canon_skip_row 2 _ _ _ _ _ (by decide)).trans ?_
      refine (canon_skip_row 1 _ _ _ _ _ (by decide)).trans ?_
      refine (canon_skip_row 0 _ _ _ _ _ (by decide)).trans ?_
      exact (canon_whole _ _ _).trans (reset_bot _)
    refine iSup_congr fun r => ?_
    rw [load_x0 _ _ _ 7 (by decide)]
    rfl

end Cert.KernelIdeal.Pieces0A

end
-- ==== Proof.Region0PiecesB.lean ====
/-
  What a grid point that does NOT reset (any later row tile of a group) of the reduction kernel leaves in its two running-extreme blocks, read at a row and a column.

  Each of the block's eight rows is written once, by a store whose value is the row's entering contents combined, lane by lane,
  with the least (or greatest) value of that row's [128, 1024] tile over its 128 rows. So the block the point leaves is ONE
  function of the block's index: at (p, w) the smaller (greater) of the entering value there and the tile's extreme in lane w.
  The eight stores are blocks of that function, and together they cover the block. A tile is the first frame's block of its
  batch row, except row 0's, which in group 0 is the difference of the two frames: the specification's `tileVal`.
-/
import proofs.«171341_j63909113364757_2_alg».proof.Proof.Spec
import proofs.«171341_j63909113364757_2_alg».proof.Proof.KernelIdealFrame
import proofs.«171341_j63909113364757_2_alg».proof.Proof.LibMinMax
import Idealize.ShloMosaic.Lib.Pipeline.Value
import Idealize.ShloMosaic.Lib.ValueLayout
import Idealize.ShloMosaic.PureOps.Ideal.Laws

noncomputable section

namespace Cert.KernelIdeal.Pieces0B

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Norm

/-- The source index over lane `w` with row `r` inserted is `(r, w)`. -/
theorem lift_row (hr : S128x1024.Reduces [0] S1024) (w : Fin 1024) (r : Fin 128) :
    hr.lift (ix1 w) r = ix2 r w := by
  funext a
  match a with
  | ⟨0, _⟩ => exact Fin.ext rfl
  | ⟨1, _⟩ => exact Fin.ext rfl

/-- One row's store of the running minimum, read at a lane: the smaller of the row's running value and the tile's least value in that lane. -/
theorem min_row (T : FVec Ideal S128x1024 .f32) (a : Vec Ideal S1x1024 .f32)
    (h1 : S1x1024.ShapeCasts S1024) (h2 : S1024.ShapeCasts S1x1024) (hr : S128x1024.Reduces [0] S1024)
    (hφ : FKind.Formats .f32) (hacc : (0x7F800000#32 : BitVec 32) = FKind.minimumf.neutral .f32 hφ)
    (q : Fin 1) (w : Fin 1024) :
    shapeCast S1x1024 (minimumf (shapeCast S1024 a h1) (multiReduction .minimumf [0] S1024 T 0x7F800000#32 hr hφ hacc)) h2 (ix2 q w)
      = min (a (ix2 (0 : Fin 1) w)) (⨅ r : Fin 128, T (ix2 r w)) := by
  refine (shapeCast_a_1a_apply _ h2 q w).trans ?_
  rw [minimumf_apply, shapeCast_1a_a_apply a h1 w,
    Cert.LibMinMax.multiReduction_minimumf_single T _ hr hφ hacc (ix1 w), Cert.LibMinMax.fold_min_univ]
  have htop : FloatOps.ofBits (F := Ideal) .f32 0x7F800000#32 = (⊤ : EReal) := Cert.LibMinMax.ofBits_posInf
  rw [htop, min_top_left]
  congr 1
  exact iInf_congr fun r => congrArg T (lift_row hr w r)

/-- One row's store of the running maximum, read at a lane. -/
theorem max_row (T : FVec Ideal S128x1024 .f32) (a : Vec Ideal S1x1024 .f32)
    (h1 : S1x1024.ShapeCasts S1024) (h2 : S1024.ShapeCasts S1x1024) (hr : S128x1024.Reduces [0] S1024)
    (hφ : FKind.Formats .f32) (hacc : (0xFF800000#32 : BitVec 32) = FKind.maximumf.neutral .f32 hφ)
    (q : Fin 1) (w : Fin 1024) :
    shapeCast S1x1024 (maximumf (shapeCast S1024 a h1) (multiReduction .maximumf [0] S1024 T 0xFF800000#32 hr hφ hacc)) h2 (ix2 q w)
      = max (a (ix2 (0 : Fin 1) w)) (⨆ r : Fin 128, T (ix2 r w)) := by
  refine (shapeCast_a_1a_apply _ h2 q w).trans ?_
  rw [maximumf_apply, shapeCast_1a_a_apply a h1 w,
    Ideal.multiReduction_maximumf_single T _ hr hφ hacc (ix1 w), Cert.LibMinMax.fold_max_univ]
  have hbot : FloatOps.ofBits (F := Ideal) .f32 0xFF800000#32 = (⊥ : EReal) := Cert.LibMinMax.ofBits_negInf
  rw [hbot, max_bot_left]
  congr 1
  exact iSup_congr fun r => congrArg T (lift_row hr w r)

/-- A one-batch block `[1,1,1,128,1024]` viewed as its tile `[128,1024]`, read at a row and a lane. -/
theorem cast5 (v : Vec Ideal S1x1x1x128x1024 .f32) (h : S1x1x1x128x1024.ShapeCasts S128x1024) (r : Fin 128) (w : Fin 1024) :
    shapeCast S128x1024 v h (ix2 r w) = v (ix5 (0 : Fin 1) (0 : Fin 1) (0 : Fin 1) r w) :=
  shapeCast_apply v h _ _ (by
    rw [Shape.rowMajor_val_five, Shape.rowMajor_val_two]
    show ((((0 * 1 + 0) * 1 + 0) * 128 + r.val) * 1024 + w.val) = r.val * 1024 + w.val
    omega)

/-- The second frame's block `[1,1,128,1024]` viewed as its tile, read at a row and a lane. -/
theorem cast4 (v : Vec Ideal S1x1x128x1024 .f32) (h : S1x1x128x1024.ShapeCasts S128x1024) (r : Fin 128) (w : Fin 1024) :
    shapeCast S128x1024 v h (ix2 r w) = v (ix4 (0 : Fin 1) (0 : Fin 1) r w) :=
  shapeCast_apply v h _ _ (by
    rw [Shape.rowMajor_val_four, Shape.rowMajor_val_two]
    show (((0 * 1 + 0) * 128 + r.val) * 1024 + w.val) = r.val * 1024 + w.val
    omega)

/-- Row `k`'s rectangle of a running-extreme block places its lane `w` at `(k, w)`. -/
theorem idx_row2 (k : ℕ) (hk : k < 8) (inb : ∀ a, (![k, 0] : Fin 2 → ℕ) a + (![1, 1024] : Fin 2 → ℕ) a ≤ S8x1024.size a)
    (q : Fin 1) (w : Fin 1024) :
    (Rect.unit (s := S8x1024) ![k, 0] ![1, 1024] inb).idx (ix2 q w) = ix2 (⟨k, hk⟩ : Fin 8) w := by
  funext a
  match a with
  | ⟨0, _⟩ => exact Fin.ext (by show k + 1 * q.val = k; omega)
  | ⟨1, _⟩ => exact Fin.ext (by show 0 + 1 * w.val = w.val; omega)

/-- Batch row `k`'s rectangle of the first frame's block places `(0, 0, 0, r, w)` at `(k, 0, 0, r, w)`. -/
theorem idx_row5 (k : ℕ) (hk : k < 8)
    (inb : ∀ a, (![k, 0, 0, 0, 0] : Fin 5 → ℕ) a + (![1, 1, 1, 128, 1024] : Fin 5 → ℕ) a ≤ S8x1x1x128x1024.size a)
    (r : Fin 128) (w : Fin 1024) :
    (Rect.unit (s := S8x1x1x128x1024) ![k, 0, 0, 0, 0] ![1, 1, 1, 128, 1024] inb).idx (ix5 (0 : Fin 1) (0 : Fin 1) (0 : Fin 1) r w)
      = ix5 (⟨k, hk⟩ : Fin 8) (0 : Fin 1) (0 : Fin 1) r w := by
  funext a
  match a with
  | ⟨0, _⟩ => exact Fin.ext (by show k + 1 * 0 = k; omega)
  | ⟨1, _⟩ => exact Fin.ext (by show 0 + 1 * 0 = 0; omega)
  | ⟨2, _⟩ => exact Fin.ext (by show 0 + 1 * 0 = 0; omega)
  | ⟨3, _⟩ => exact Fin.ext (by show 0 + 1 * r.val = r.val; omega)
  | ⟨4, _⟩ => exact Fin.ext (by show 0 + 1 * w.val = w.val; omega)

/-- The whole-block rectangle of the second frame's block places an index at itself. -/
theorem idx_whole4
    (inb : ∀ a, (![0, 0, 0, 0] : Fin 4 → ℕ) a + (![1, 1, 128, 1024] : Fin 4 → ℕ) a ≤ S1x1x128x1024.size a)
    (r : Fin 128) (w : Fin 1024) :
    (Rect.unit (s := S1x1x128x1024) ![0, 0, 0, 0] ![1, 1, 128, 1024] inb).idx (ix4 (0 : Fin 1) (0 : Fin 1) r w)
      = ix4 (0 : Fin 1) (0 : Fin 1) r w := by
  funext a
  match a with
  | ⟨0, _⟩ => exact Fin.ext (by show 0 + 1 * 0 = 0; omega)
  | ⟨1, _⟩ => exact Fin.ext (by show 0 + 1 * 0 = 0; omega)
  | ⟨2, _⟩ => exact Fin.ext (by show 0 + 1 * r.val = r.val; omega)
  | ⟨3, _⟩ => exact Fin.ext (by show 0 + 1 * w.val = w.val; omega)

/-- The select on "the group is 0", for a group below 2, is the `if` on the group. -/
theorem sel_grid {α : Type} (g : ℕ) (hg : g < 2) (A B : α) :
    Scalar.select (Scalar.cmpi .eq (BitVec.ofNat 32 g) 0#32) A B = if g = 0 then A else B :=
  select_eq0 g hg A B

/-- What the non-resetting case leaves in the running-minimum block, as ONE function of the block's index. -/
def Gmin (g : ℕ) (x0 : Vec Ideal S8x1x1x128x1024 .f32) (x1 : Vec Ideal S1x1x128x1024 .f32) (xo2 : Vec Ideal S8x1024 .f32) :
    S8x1024.Idx → EReal :=
  fun y => min (xo2 y) (⨅ r : Fin 128, tileVal g x0 x1 ⟨(y 0).val, idx2_lt0 y⟩ r ⟨(y 1).val, idx2_lt1 y⟩)

/-- What it leaves in the running-maximum block. -/
def Gmax (g : ℕ) (x0 : Vec Ideal S8x1x1x128x1024 .f32) (x1 : Vec Ideal S1x1x128x1024 .f32) (xo3 : Vec Ideal S8x1024 .f32) :
    S8x1024.Idx → EReal :=
  fun y => max (xo3 y) (⨆ r : Fin 128, tileVal g x0 x1 ⟨(y 0).val, idx2_lt0 y⟩ r ⟨(y 1).val, idx2_lt1 y⟩)

/-- A later row's tile (any batch row but the first) is the first frame's block of that row. -/
theorem tile_plain (k : ℕ) (hk : k < 8) (hk0 : k ≠ 0) (g : ℕ) (x0 : Vec Ideal S8x1x1x128x1024 .f32) (x1 : Vec Ideal S1x1x128x1024 .f32)
    (inb5) (h5 : S1x1x1x128x1024.ShapeCasts S128x1024) (r : Fin 128) (w : Fin 1024) :
    shapeCast S128x1024 (View.ld x0 (Rect.unit (s := S8x1x1x128x1024) ![k, 0, 0, 0, 0] ![1, 1, 1, 128, 1024] inb5)) h5 (ix2 r w)
      = tileVal g x0 x1 (⟨k, hk⟩ : Fin 8) r w := by
  rw [cast5]
  show x0 ((Rect.unit (s := S8x1x1x128x1024) ![k, 0, 0, 0, 0] ![1, 1, 1, 128, 1024] inb5).idx (ix5 (0 : Fin 1) (0 : Fin 1) (0 : Fin 1) r w)) = _
  rw [idx_row5 k hk]
  unfold tileVal
  rw [if_neg (show ¬(⟨k, hk⟩ : Fin 8).val = 0 from hk0)]

/-- The first row's tile: the difference of the two frames in group 0, the first frame otherwise. -/
theorem tile_zero (i : grid0.Coords) (x0 : Vec Ideal S8x1x1x128x1024 .f32) (x1 : Vec Ideal S1x1x128x1024 .f32)
    (inb5) (inb4) (r : Fin 128) (w : Fin 1024) :
    k0_pay7 i (View.ld x1 (Rect.unit (s := S1x1x128x1024) ![0, 0, 0, 0] ![1, 1, 128, 1024] inb4))
        (View.ld x0 (Rect.unit (s := S8x1x1x128x1024) ![0, 0, 0, 0, 0] ![1, 1, 1, 128, 1024] inb5)) (ix2 r w)
      = tileVal (i 0).val x0 x1 (⟨0, by omega⟩ : Fin 8) r w := by
  unfold k0_pay7
  dsimp only
  rw [sel_grid (i 0).val (i 0).isLt]
  unfold tileVal
  rw [if_pos (show (⟨0, by omega⟩ : Fin 8).val = 0 from rfl)]
  by_cases hg : (i 0).val = 0
  · rw [if_pos hg, if_pos hg, subf_apply, cast4, cast5]
    show x1 ((Rect.unit (s := S1x1x128x1024) ![0, 0, 0, 0] ![1, 1, 128, 1024] inb4).idx (ix4 (0 : Fin 1) (0 : Fin 1) r w))
      - x0 ((Rect.unit (s := S8x1x1x128x1024) ![0, 0, 0, 0, 0] ![1, 1, 1, 128, 1024] inb5).idx (ix5 (0 : Fin 1) (0 : Fin 1) (0 : Fin 1) r w)) = _
    rw [idx_whole4, idx_row5 0 (by omega)]
    rfl
  · rw [if_neg hg, if_neg hg, cast5]
    show x0 ((Rect.unit (s := S8x1x1x128x1024) ![0, 0, 0, 0, 0] ![1, 1, 1, 128, 1024] inb5).idx (ix5 (0 : Fin 1) (0 : Fin 1) (0 : Fin 1) r w)) = _
    rw [idx_row5 0 (by omega)]
    rfl

/-- One row's store of the running minimum over ANY tile that reads as the specification's tile of that row: a block of `Gmin`. -/
theorem piece_min (k : ℕ) (hk : k < 8) (g : ℕ) (x0 : Vec Ideal S8x1x1x128x1024 .f32) (x1 : Vec Ideal S1x1x128x1024 .f32)
    (xo2 : Vec Ideal S8x1024 .f32) (T : FVec Ideal S128x1024 .f32)
    (hT : ∀ (r : Fin 128) (w : Fin 1024), T (ix2 r w) = tileVal g x0 x1 (⟨k, hk⟩ : Fin 8) r w)
    (inb2 inb2') (h1 : S1x1024.ShapeCasts S1024) (h2 : S1024.ShapeCasts S1x1024) (hr : S128x1024.Reduces [0] S1024)
    (hφ : FKind.Formats .f32) (hacc : (0x7F800000#32 : BitVec 32) = FKind.minimumf.neutral .f32 hφ)
    (q : Fin 1) (w : Fin 1024) :
    shapeCast S1x1024 (minimumf (shapeCast S1024 (View.ld xo2 (Rect.unit (s := S8x1024) ![k, 0] ![1, 1024] inb2)) h1)
        (multiReduction .minimumf [0] S1024 T 0x7F800000#32 hr hφ hacc)) h2 (ix2 q w)
      = Gmin g x0 x1 xo2 ((Rect.unit (s := S8x1024) ![k, 0] ![1, 1024] inb2').emb (ix2 q w)) := by
  rw [min_row]
  show min (xo2 ((Rect.unit (s := S8x1024) ![k, 0] ![1, 1024] inb2).idx (ix2 (0 : Fin 1) w))) _
    = Gmin g x0 x1 xo2 ((Rect.unit (s := S8x1024) ![k, 0] ![1, 1024] inb2').idx (ix2 q w))
  rw [idx_row2 k hk, idx_row2 k hk]
  unfold Gmin
  show min (xo2 (ix2 (⟨k, hk⟩ : Fin 8) w)) _ = min (xo2 (ix2 (⟨k, hk⟩ : Fin 8) w)) (⨅ r : Fin 128, tileVal g x0 x1 (⟨k, hk⟩ : Fin 8) r w)
  congr 1
  exact iInf_congr fun r => hT r w

/-- One row's store of the running maximum over ANY tile that reads as the specification's tile of that row: a block of `Gmax`. -/
theorem piece_max (k : ℕ) (hk : k < 8) (g : ℕ) (x0 : Vec Ideal S8x1x1x128x1024 .f32) (x1 : Vec Ideal S1x1x128x1024 .f32)
    (xo3 : Vec Ideal S8x1024 .f32) (T : FVec Ideal S128x1024 .f32)
    (hT : ∀ (r : Fin 128) (w : Fin 1024), T (ix2 r w) = tileVal g x0 x1 (⟨k, hk⟩ : Fin 8) r w)
    (inb2 inb2') (h1 : S1x1024.ShapeCasts S1024) (h2 : S1024.ShapeCasts S1x1024) (hr : S128x1024.Reduces [0] S1024)
    (hφ : FKind.Formats .f32) (hacc : (0xFF800000#32 : BitVec 32) = FKind.maximumf.neutral .f32 hφ)
    (q : Fin 1) (w : Fin 1024) :
    shapeCast S1x1024 (maximumf (shapeCast S1024 (View.ld xo3 (Rect.unit (s := S8x1024) ![k, 0] ![1, 1024] inb2)) h1)
        (multiReduction .maximumf [0] S1024 T 0xFF800000#32 hr hφ hacc)) h2 (ix2 q w)
      = Gmax g x0 x1 xo3 ((Rect.unit (s := S8x1024) ![k, 0] ![1, 1024] inb2').emb (ix2 q w)) := by
  rw [max_row]
  show max (xo3 ((Rect.unit (s := S8x1024) ![k, 0] ![1, 1024] inb2).idx (ix2 (0 : Fin 1) w))) _
    = Gmax g x0 x1 xo3 ((Rect.unit (s := S8x1024) ![k, 0] ![1, 1024] inb2').idx (ix2 q w))
  rw [idx_row2 k hk, idx_row2 k hk]
  unfold Gmax
  show max (xo3 (ix2 (⟨k, hk⟩ : Fin 8) w)) _ = max (xo3 (ix2 (⟨k, hk⟩ : Fin 8) w)) (⨆ r : Fin 128, tileVal g x0 x1 (⟨k, hk⟩ : Fin 8) r w)
  congr 1
  exact iSup_congr fun r => hT r w

/-- At any other point the running minimum becomes the smaller of what the point before left and the tile's own least value. -/
theorem out0_B_2_apply (c : Dev nD) (i : grid0.Coords) (arg2 : Memref sig .tc .vmem S8x1x1x128x1024 .f32) (harg2 : arg2.IsWhole) (arg3 : Memref sig .tc .vmem S1x1x128x1024 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i)
    (x0 : Vec Ideal S8x1x1x128x1024 .f32) (x1 : Vec Ideal S1x1x128x1024 .f32) (xo2 : Vec Ideal S8x1024 .f32) (xo3 : Vec Ideal S8x1024 .f32) (p : Fin 8) (w : Fin 1024) :
    out0_B_2 (F := Ideal) c i arg2 harg2 arg3 harg3 arg4 harg4 arg5 harg5 hc0 x0 x1 xo2 xo3 (ix2 p w)
      = min (xo2 (ix2 p w)) (⨅ r : Fin 128, tileVal (i 0).val x0 x1 p r w) := by
  unfold out0_B_2
  rw [View.read_writes_eq_canon _ _ _ (cover0_B_2 c i arg2 harg2 arg3 harg3 arg4 harg4 arg5 harg5 hc0 x0 x1 xo2 xo3)]
  refine (View.canon_apply_of_pieces (Gmin (i 0).val x0 x1 xo2) _ ?_ (ix2 p w)
    (cover0_B_2 c i arg2 harg2 arg3 harg3 arg4 harg4 arg5 harg5 hc0 x0 x1 xo2 xo3 (ix2 p w))).trans rfl
  unfold kernelRun0_B
  dsimp only
  sl_unfold_words
  intro pc hpc x
  simp only [List.mem_cons, List.not_mem_nil, or_false] at hpc
  rcases hpc with rfl | rfl | rfl | rfl | rfl | rfl | rfl | rfl
  all_goals obtain ⟨q, w', rfl⟩ : ∃ (q : Fin 1) (w' : Fin 1024), x = ix2 q w' := ⟨x 0, x 1, eq_ix2 x⟩
  all_goals simp only [View.readAt_eq_ld, harg2.read_unread, harg3.read_unread, harg4.read_unread]
  · unfold k0_pay3 k0_pay2; dsimp only
    exact piece_min 7 (by omega) _ x0 x1 xo2 _ (fun r w => tile_plain 7 (by omega) (by omega) _ x0 x1 _ _ r w) _ _ _ _ _ _ _ q w'
  · unfold k0_pay29 k0_pay27; dsimp only
    exact piece_min 6 (by omega) _ x0 x1 xo2 _ (fun r w => tile_plain 6 (by omega) (by omega) _ x0 x1 _ _ r w) _ _ _ _ _ _ _ q w'
  · unfold k0_pay25 k0_pay24; dsimp only
    exact piece_min 5 (by omega) _ x0 x1 xo2 _ (fun r w => tile_plain 5 (by omega) (by omega) _ x0 x1 _ _ r w) _ _ _ _ _ _ _ q w'
  · unfold k0_pay21 k0_pay20; dsimp only
    exact piece_min 4 (by omega) _ x0 x1 xo2 _ (fun r w => tile_plain 4 (by omega) (by omega) _ x0 x1 _ _ r w) _ _ _ _ _ _ _ q w'
  · unfold k0_pay18 k0_pay17; dsimp only
    exact piece_min 3 (by omega) _ x0 x1 xo2 _ (fun r w => tile_plain 3 (by omega) (by omega) _ x0 x1 _ _ r w) _ _ _ _ _ _ _ q w'
  · unfold k0_pay15 k0_pay14; dsimp only
    exact piece_min 2 (by omega) _ x0 x1 xo2 _ (fun r w => tile_plain 2 (by omega) (by omega) _ x0 x1 _ _ r w) _ _ _ _ _ _ _ q w'
  · unfold k0_pay12 k0_pay11 k0_pay10; dsimp only
    exact piece_min 1 (by omega) _ x0 x1 xo2 _ (fun r w => tile_plain 1 (by omega) (by omega) _ x0 x1 _ _ r w) _ _ _ _ _ _ _ q w'
  · unfold k0_pay8; dsimp only
    exact piece_min 0 (by omega) _ x0 x1 xo2 _ (fun r w => tile_zero i x0 x1 _ _ r w) _ _ _ _ _ _ _ q w'

/-- And the running maximum the greater of the two. -/
theorem out0_B_3_apply (c : Dev nD) (i : grid0.Coords) (arg2 : Memref sig .tc .vmem S8x1x1x128x1024 .f32) (harg2 : arg2.IsWhole) (arg3 : Memref sig .tc .vmem S1x1x128x1024 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i)
    (x0 : Vec Ideal S8x1x1x128x1024 .f32) (x1 : Vec Ideal S1x1x128x1024 .f32) (xo2 : Vec Ideal S8x1024 .f32) (xo3 : Vec Ideal S8x1024 .f32) (p : Fin 8) (w : Fin 1024) :
    out0_B_3 (F := Ideal) c i arg2 harg2 arg3 harg3 arg4 harg4 arg5 harg5 hc0 x0 x1 xo2 xo3 (ix2 p w)
      = max (xo3 (ix2 p w)) (⨆ r : Fin 128, tileVal (i 0).val x0 x1 p r w) := by
  unfold out0_B_3
  rw [View.read_writes_eq_canon _ _ _ (cover0_B_3 c i arg2 harg2 arg3 harg3 arg4 harg4 arg5 harg5 hc0 x0 x1 xo2 xo3)]
  refine (View.canon_apply_of_pieces (Gmax (i 0).val x0 x1 xo3) _ ?_ (ix2 p w)
    (cover0_B_3 c i arg2 harg2 arg3 harg3 arg4 harg4 arg5 harg5 hc0 x0 x1 xo2 xo3 (ix2 p w))).trans rfl
  unfold kernelRun0_B
  dsimp only
  sl_unfold_words
  intro pc hpc x
  simp only [List.mem_cons, List.not_mem_nil, or_false] at hpc
  rcases hpc with rfl | rfl | rfl | rfl | rfl | rfl | rfl | rfl
  all_goals obtain ⟨q, w', rfl⟩ : ∃ (q : Fin 1) (w' : Fin 1024), x = ix2 q w' := ⟨x 0, x 1, eq_ix2 x⟩
  all_goals simp only [View.readAt_eq_ld, harg2.read_unread, harg3.read_unread, harg5.read_unread]
  · unfold k0_pay4 k0_pay2; dsimp only
    exact piece_max 7 (by omega) _ x0 x1 xo3 _ (fun r w => tile_plain 7 (by omega) (by omega) _ x0 x1 _ _ r w) _ _ _ _ _ _ _ q w'
  · unfold k0_pay1 k0_pay28 k0_pay27; dsimp only
    exact piece_max 6 (by omega) _ x0 x1 xo3 _ (fun r w => tile_plain 6 (by omega) (by omega) _ x0 x1 _ _ r w) _ _ _ _ _ _ _ q w'
  · unfold k0_pay26 k0_pay24; dsimp only
    exact piece_max 5 (by omega) _ x0 x1 xo3 _ (fun r w => tile_plain 5 (by omega) (by omega) _ x0 x1 _ _ r w) _ _ _ _ _ _ _ q w'
  · unfold k0_pay23 k0_pay22 k0_pay20; dsimp only
    exact piece_max 4 (by omega) _ x0 x1 xo3 _ (fun r w => tile_plain 4 (by omega) (by omega) _ x0 x1 _ _ r w) _ _ _ _ _ _ _ q w'
  · unfold k0_pay19 k0_pay17; dsimp only
    exact piece_max 3 (by omega) _ x0 x1 xo3 _ (fun r w => tile_plain 3 (by omega) (by omega) _ x0 x1 _ _ r w) _ _ _ _ _ _ _ q w'
  · unfold k0_pay16 k0_pay14; dsimp only
    exact piece_max 2 (by omega) _ x0 x1 xo3 _ (fun r w => tile_plain 2 (by omega) (by omega) _ x0 x1 _ _ r w) _ _ _ _ _ _ _ q w'
  · unfold k0_pay13 k0_pay10; dsimp only
    exact piece_max 1 (by omega) _ x0 x1 xo3 _ (fun r w => tile_plain 1 (by omega) (by omega) _ x0 x1 _ _ r w) _ _ _ _ _ _ _ q w'
  · unfold k0_pay9; dsimp only
    exact piece_max 0 (by omega) _ x0 x1 xo3 _ (fun r w => tile_zero i x0 x1 _ _ r w) _ _ _ _ _ _ _ q w'

end Cert.KernelIdeal.Pieces0B

end
-- ==== Proof.Region0Value.lean ====
/-
  The reduction kernel's two result arrays: per batch and column, the least and the greatest value over the batch's rows.
-/
import proofs.«171341_j63909113364757_2_alg».proof.Proof.Spec
import proofs.«171341_j63909113364757_2_alg».proof.Proof.LibMinMax
import proofs.«171341_j63909113364757_2_alg».proof.Proof.KernelIdealFrame
import proofs.«171341_j63909113364757_2_alg».proof.Proof.Region0PiecesA
import proofs.«171341_j63909113364757_2_alg».proof.Proof.Region0PiecesB
import Idealize.ShloMosaic.Lib.Pipeline.Value

noncomputable section

namespace Cert.KernelIdeal.Value0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Norm
open Cert.KernelIdeal.Pieces0A Cert.KernelIdeal.Pieces0B

variable (V : (c : Dev nD) → (b : Ref sig .tc) → Buf (Elt Ideal) ((c : Thread nD τ).loc b))

/-- The index maps of the two input windows, and the group coordinate, over the grid. -/
theorem idx_in : ∀ t : Fin cfg0.N, win0_0.index t 0 = t.val / 8 ∧ win0_0.index t 1 = 0 ∧ win0_0.index t 2 = 0
    ∧ win0_0.index t 3 = t.val % 8 ∧ win0_0.index t 4 = 0
    ∧ win0_1.index t 0 = 0 ∧ win0_1.index t 1 = 0 ∧ win0_1.index t 2 = t.val % 8 ∧ win0_1.index t 3 = 0
    ∧ (grid0.coords t 0).val = t.val / 8 :=
  (by decide +kernel : ∀ t : Fin grid0.N, win0_0.index t 0 = t.val / 8 ∧ win0_0.index t 1 = 0 ∧ win0_0.index t 2 = 0
    ∧ win0_0.index t 3 = t.val % 8 ∧ win0_0.index t 4 = 0
    ∧ win0_1.index t 0 = 0 ∧ win0_1.index t 1 = 0 ∧ win0_1.index t 2 = t.val % 8 ∧ win0_1.index t 3 = 0
    ∧ (grid0.coords t 0).val = t.val / 8)

/-- Point `t`'s block of the argument array: batches `8 (t / 8) ..`, frame 0, rows `128 (t % 8) ..`. -/
theorem blk0_apply (c : Dev nD) (x : Arg) (hA : V c main_arg0 = x) (t : Fin cfg0.N) (p : Fin 8) (r : Fin 128) (w : Fin 1024)
    (b : Fin 16) (h : Fin 1024) (hb : b.val = 8 * (t.val / 8) + p.val) (hh : h.val = 128 * (t.val % 8) + r.val) :
    (iblk0 V c 0 t : Vec Ideal S8x1x1x128x1024 .f32) (ix5 p (0 : Fin 1) (0 : Fin 1) r w) = x (ix5 b (0 : Fin 1) (0 : Fin 3) h w) := by
  obtain ⟨i0, i1, i2, i3, i4, _⟩ := idx_in t
  unfold iblk0
  rw [View.read_apply]
  show V c main_arg0 _ = x _
  rw [hA]
  congr 1
  funext a
  apply Fin.ext
  match a with
  | ⟨0, _⟩ => show win0_0.index t 0 * 8 + 1 * p.val = b.val; rw [i0]; omega
  | ⟨1, _⟩ => show win0_0.index t 1 * 1 + 1 * 0 = 0; rw [i1]
  | ⟨2, _⟩ => show win0_0.index t 2 * 1 + 1 * 0 = 0; rw [i2]
  | ⟨3, _⟩ => show win0_0.index t 3 * 128 + 1 * r.val = h.val; rw [i3]; omega
  | ⟨4, _⟩ => show win0_0.index t 4 * 1024 + 1 * w.val = w.val; rw [i4]; omega

/-- Point `t`'s block of the sliced buffer: rows `128 (t % 8) ..` of batch 0's frame 2. -/
theorem blk1_apply (c : Dev nD) (x : Arg)
    (h1 : ∀ (h w : Fin 1024), V c main_v1 (ix4 (0 : Fin 1) (0 : Fin 1) h w) = x (ix5 (0 : Fin 16) (0 : Fin 1) (2 : Fin 3) h w))
    (t : Fin cfg0.N) (r : Fin 128) (w : Fin 1024) (h : Fin 1024) (hh : h.val = 128 * (t.val % 8) + r.val) :
    (iblk0 V c 1 t : Vec Ideal S1x1x128x1024 .f32) (ix4 (0 : Fin 1) (0 : Fin 1) r w) = x (ix5 (0 : Fin 16) (0 : Fin 1) (2 : Fin 3) h w) := by
  obtain ⟨_, _, _, _, _, j0, j1, j2, j3, _⟩ := idx_in t
  unfold iblk0
  rw [View.read_apply]
  refine Eq.trans ?_ (h1 h w)
  show V c main_v1 _ = V c main_v1 _
  congr 1
  funext a
  apply Fin.ext
  match a with
  | ⟨0, _⟩ => show win0_1.index t 0 * 1 + 1 * 0 = 0; rw [j0]
  | ⟨1, _⟩ => show win0_1.index t 1 * 1 + 1 * 0 = 0; rw [j1]
  | ⟨2, _⟩ => show win0_1.index t 2 * 128 + 1 * r.val = h.val; rw [j2]; omega
  | ⟨3, _⟩ => show win0_1.index t 3 * 1024 + 1 * w.val = w.val; rw [j3]; omega

/-- So the tile a point sees is the value array's rows `128 (t % 8) ..` of batches `8 (t / 8) ..`: batch `8 g + p` is
    batch 0 exactly when `g = 0` and `p = 0`. -/
theorem tile_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w))
    (t : Fin cfg0.N) (p : Fin 8) (r : Fin 128) (w : Fin 1024)
    (b : Fin 16) (h : Fin 1024) (hb : b.val = 8 * (t.val / 8) + p.val) (hh : h.val = 128 * (t.val % 8) + r.val) :
    tileVal (grid0.coords t 0).val (iblk0 V c 0 t : Vec Ideal S8x1x1x128x1024 .f32) (iblk0 V c 1 t : Vec Ideal S1x1x128x1024 .f32) p r w
      = sval x b h w := by
  have hg : (grid0.coords t 0).val = t.val / 8 := (idx_in t).2.2.2.2.2.2.2.2.2
  unfold tileVal sval
  rw [hg]
  by_cases hp : p.val = 0
  · obtain rfl : p = 0 := Fin.ext hp
    rw [if_pos hp]
    by_cases hg0 : t.val / 8 = 0
    · have hb0 : b.val = 0 := by rw [hb, hg0]; rfl
      rw [if_pos hg0, if_pos hb0, blk1_apply V c x h1 t r w h hh, blk0_apply V c x hA t 0 r w 0 h (by rw [hg0]; rfl) hh]
    · have hb0 : ¬ b.val = 0 := by rw [hb]; omega
      rw [if_neg hg0, if_neg hb0, blk0_apply V c x hA t 0 r w b h hb hh]
  · have hb0 : ¬ b.val = 0 := by rw [hb]; omega
    rw [if_neg hp, if_neg hb0, blk0_apply V c x hA t p r w b h hb hh]

/-- Extending a running minimum over the rows below `k` by the next 128 rows. -/
theorem min_step (f : Fin 1024 → EReal) (g : Fin 128 → EReal) (k : Nat) (hk : k + 128 ≤ 1024)
    (hg : ∀ (r : Fin 128) (h : Fin 1024), h.val = k + r.val → g r = f h) :
    min (⨅ h : Fin 1024, if h.val < k then f h else ⊤) (⨅ r : Fin 128, g r)
      = ⨅ h : Fin 1024, if h.val < k + 128 then f h else ⊤ := by
  apply le_antisymm
  · refine le_iInf fun h => ?_
    by_cases h2 : h.val < k + 128
    · rw [if_pos h2]
      by_cases h3 : h.val < k
      · exact (min_le_left _ _).trans ((iInf_le _ h).trans (le_of_eq (if_pos h3)))
      · exact (min_le_right _ _).trans ((iInf_le _ (⟨h.val - k, by omega⟩ : Fin 128)).trans
          (le_of_eq (hg _ h (by show h.val = k + (h.val - k); omega))))
    · rw [if_neg h2]; exact le_top
  · refine le_min (le_iInf fun h => ?_) (le_iInf fun r => ?_)
    · by_cases h3 : h.val < k
      · rw [if_pos h3]; exact (iInf_le _ h).trans (le_of_eq (if_pos (by omega)))
      · rw [if_neg h3]; exact le_top
    · have hr := r.isLt
      refine (iInf_le _ (⟨k + r.val, by omega⟩ : Fin 1024)).trans ?_
      rw [if_pos (show k + r.val < k + 128 by omega)]
      exact le_of_eq (hg r _ rfl).symm

/-- The same for a running maximum. -/
theorem max_step (f : Fin 1024 → EReal) (g : Fin 128 → EReal) (k : Nat) (hk : k + 128 ≤ 1024)
    (hg : ∀ (r : Fin 128) (h : Fin 1024), h.val = k + r.val → g r = f h) :
    max (⨆ h : Fin 1024, if h.val < k then f h else ⊥) (⨆ r : Fin 128, g r)
      = ⨆ h : Fin 1024, if h.val < k + 128 then f h else ⊥ := by
  apply le_antisymm
  · refine max_le (iSup_le fun h => ?_) (iSup_le fun r => ?_)
    · by_cases h3 : h.val < k
      · rw [if_pos h3]; exact (le_of_eq (if_pos (by omega)).symm).trans (le_iSup (fun h : Fin 1024 => if h.val < k + 128 then f h else ⊥) h)
      · rw [if_neg h3]; exact bot_le
    · have hr := r.isLt
      refine le_trans ?_ (le_iSup (fun h : Fin 1024 => if h.val < k + 128 then f h else ⊥) (⟨k + r.val, by omega⟩ : Fin 1024))
      rw [if_pos (show k + r.val < k + 128 by omega)]
      exact le_of_eq (hg r _ rfl)
  · refine iSup_le fun h => ?_
    by_cases h2 : h.val < k + 128
    · rw [if_pos h2]
      by_cases h3 : h.val < k
      · exact ((le_of_eq (if_pos h3).symm).trans (le_iSup (fun h : Fin 1024 => if h.val < k then f h else ⊥) h)).trans (le_max_left _ _)
      · exact ((le_of_eq (hg (⟨h.val - k, by omega⟩ : Fin 128) h (by show h.val = k + (h.val - k); omega)).symm).trans
          (le_iSup g (⟨h.val - k, by omega⟩ : Fin 128))).trans (le_max_right _ _)
    · rw [if_neg h2]; exact bot_le

/-- A group's first tile: nothing lies below it. -/
theorem min_first (f : Fin 1024 → EReal) (g : Fin 128 → EReal) (k : Nat) (hk0 : k = 0)
    (hg : ∀ (r : Fin 128) (h : Fin 1024), h.val = k + r.val → g r = f h) :
    (⨅ r : Fin 128, g r) = ⨅ h : Fin 1024, if h.val < k + 128 then f h else ⊤ := by
  have e : (⨅ h : Fin 1024, if h.val < k then f h else ⊤) = ⊤ := iInf_eq_top.mpr fun h => if_neg (by omega)
  rw [← min_step f g k (by omega) hg, e, min_top_left]

theorem max_first (f : Fin 1024 → EReal) (g : Fin 128 → EReal) (k : Nat) (hk0 : k = 0)
    (hg : ∀ (r : Fin 128) (h : Fin 1024), h.val = k + r.val → g r = f h) :
    (⨆ r : Fin 128, g r) = ⨆ h : Fin 1024, if h.val < k + 128 then f h else ⊥ := by
  have e : (⨆ h : Fin 1024, if h.val < k then f h else ⊥) = ⊥ := iSup_eq_bot.mpr fun h => if_neg (by omega)
  rw [← max_step f g k (by omega) hg, e, max_bot_left]

/-- A later tile: what the tile before left, extended. -/
theorem min_next (f : Fin 1024 → EReal) (g : Fin 128 → EReal) (k k' : Nat) (prev : EReal) (hk : k + 128 ≤ 1024)
    (hprev : prev = ⨅ h : Fin 1024, if h.val < k' + 128 then f h else ⊤) (hkk : k' + 128 = k)
    (hg : ∀ (r : Fin 128) (h : Fin 1024), h.val = k + r.val → g r = f h) :
    min prev (⨅ r : Fin 128, g r) = ⨅ h : Fin 1024, if h.val < k + 128 then f h else ⊤ := by
  subst hprev
  subst hkk
  exact min_step f g _ hk hg

theorem max_next (f : Fin 1024 → EReal) (g : Fin 128 → EReal) (k k' : Nat) (prev : EReal) (hk : k + 128 ≤ 1024)
    (hprev : prev = ⨆ h : Fin 1024, if h.val < k' + 128 then f h else ⊥) (hkk : k' + 128 = k)
    (hg : ∀ (r : Fin 128) (h : Fin 1024), h.val = k + r.val → g r = f h) :
    max prev (⨆ r : Fin 128, g r) = ⨆ h : Fin 1024, if h.val < k + 128 then f h else ⊥ := by
  subst hprev
  subst hkk
  exact max_step f g _ hk hg

/-- THE INVARIANT. After point `n` (group `n / 8`, row tile `n % 8`) the running minimum and maximum of row `p`, column
    `w` are those of batch `8 (n / 8) + p`'s value array over the rows below `128 (n % 8 + 1)` — by induction on the point. -/
theorem outs_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w))
    (n : ℕ) : ∀ (hn : n < cfg0.N) (p : Fin 8) (w : Fin 1024) (b : Fin 16), b.val = 8 * (n / 8) + p.val →
      ((outsAt0 V c n hn).1 : Vec Ideal S8x1024 .f32) (ix2 p w)
          = (⨅ h : Fin 1024, if h.val < 128 * (n % 8) + 128 then sval x b h w else ⊤)
        ∧ ((outsAt0 V c n hn).2 : Vec Ideal S8x1024 .f32) (ix2 p w)
          = (⨆ h : Fin 1024, if h.val < 128 * (n % 8) + 128 then sval x b h w else ⊥) := by
  induction n using Nat.strong_induction_on with
  | _ n ih =>
    intro hn p w b hb
    have hg : ∀ (r : Fin 128) (h : Fin 1024), h.val = 128 * (n % 8) + r.val →
        tileVal (grid0.coords ⟨n, hn⟩ 0).val (iblk0 V c 0 ⟨n, hn⟩ : Vec Ideal S8x1x1x128x1024 .f32)
          (iblk0 V c 1 ⟨n, hn⟩ : Vec Ideal S1x1x128x1024 .f32) p r w = sval x b h w :=
      fun r h hh => tile_eq V c x hA h1 ⟨n, hn⟩ p r w b h hb hh
    have hk : 128 * (n % 8) + 128 ≤ 1024 := by omega
    by_cases h0 : n % 8 = 0
    · have h0' : (⟨n, hn⟩ : Fin cfg0.N).val % 8 = 0 := h0
      rw [outsAt0_A V c ⟨n, hn⟩ h0']
      dsimp only
      constructor
      · refine (out0_A_2_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0') (iblk0 V c 0 ⟨n, hn⟩) (iblk0 V c 1 ⟨n, hn⟩) p w).trans ?_
        exact min_first (fun h => sval x b h w) _ (128 * (n % 8)) (by omega) hg
      · refine (out0_A_3_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0') (iblk0 V c 0 ⟨n, hn⟩) (iblk0 V c 1 ⟨n, hn⟩) p w).trans ?_
        exact max_first (fun h => sval x b h w) _ (128 * (n % 8)) (by omega) hg
    · have h0' : ¬(⟨n, hn⟩ : Fin cfg0.N).val % 8 = 0 := h0
      have hn1 : n - 1 < cfg0.N := Nat.lt_of_le_of_lt (Nat.sub_le _ _) hn
      obtain ⟨ih1, ih2⟩ := ih (n - 1) (by omega) hn1 p w b (by rw [hb]; omega)
      rw [outsAt0_B V c ⟨n, hn⟩ h0']
      dsimp only
      constructor
      · refine (out0_B_2_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0' ((hcond0_0 ⟨n, hn⟩).mp h)) (iblk0 V c 0 ⟨n, hn⟩) (iblk0 V c 1 ⟨n, hn⟩) (outsAt0 V c (n - 1) hn1).1 (outsAt0 V c (n - 1) hn1).2 p w).trans ?_
        exact min_next (fun h => sval x b h w) _ (128 * (n % 8)) (128 * ((n - 1) % 8)) _ hk ih1 (by omega) hg
      · refine (out0_B_3_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0' ((hcond0_0 ⟨n, hn⟩).mp h)) (iblk0 V c 0 ⟨n, hn⟩) (iblk0 V c 1 ⟨n, hn⟩) (outsAt0 V c (n - 1) hn1).1 (outsAt0 V c (n - 1) hn1).2 p w).trans ?_
        exact max_next (fun h => sval x b h w) _ (128 * (n % 8)) (128 * ((n - 1) % 8)) _ hk ih2 (by omega) hg

/-- The index maps of the two output windows over the grid. -/
theorem idx_out : ∀ t : Fin cfg0.N, win0_2.index t 0 = t.val / 8 ∧ win0_2.index t 1 = 0
    ∧ win0_3.index t 0 = t.val / 8 ∧ win0_3.index t 1 = 0 :=
  (by decide +kernel : ∀ t : Fin grid0.N, win0_2.index t 0 = t.val / 8 ∧ win0_2.index t 1 = 0
    ∧ win0_3.index t 0 = t.val / 8 ∧ win0_3.index t 1 = 0)

/-- Each batch's column minima, as contents of the first result array. -/
abbrev Gmin (x : Arg) : S16x1024.Idx → EReal := fun j => rowMin x ⟨(j 0).val, (j 0).isLt⟩ ⟨(j 1).val, (j 1).isLt⟩
/-- Each batch's column maxima, as contents of the second. -/
abbrev Gmax (x : Arg) : S16x1024.Idx → EReal := fun j => rowMax x ⟨(j 0).val, (j 0).isLt⟩ ⟨(j 1).val, (j 1).isLt⟩

/-- After a group's last row tile the rows below `1024` are all of them. -/
theorem rowMin_of (x : Arg) (b b' : Fin 16) (w w' : Fin 1024) (k : Nat) (hk : k = 1024) (hb : b.val = b'.val)
    (hw : w.val = w'.val) : (⨅ h : Fin 1024, if h.val < k then sval x b h w else ⊤) = rowMin x b' w' := by
  obtain rfl := Fin.ext hb
  obtain rfl := Fin.ext hw
  subst hk
  unfold rowMin
  exact iInf_congr fun h => if_pos h.isLt

theorem rowMax_of (x : Arg) (b b' : Fin 16) (w w' : Fin 1024) (k : Nat) (hk : k = 1024) (hb : b.val = b'.val)
    (hw : w.val = w'.val) : (⨆ h : Fin 1024, if h.val < k then sval x b h w else ⊥) = rowMax x b' w' := by
  obtain rfl := Fin.ext hb
  obtain rfl := Fin.ext hw
  subst hk
  unfold rowMax
  exact iSup_congr fun h => if_pos h.isLt

/-- What a group's last point writes back to the first result array is its block of the column minima. -/
theorem flushed2_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w))
    (t : Fin cfg0.N) (hf : (cfg0.win 2).flush t = true) :
    (dat0 V c).flushed 2 t = ((cfg0.win 2).blk t).view.read (Elt Ideal) (Gmin x) := by
  have h7 : t.val % 8 = 7 := (flush0_2 t).mp hf
  have hN : t.val < 16 := lt_of_lt_of_eq t.isLt (show cfg0.N = 16 from N_0)
  obtain ⟨o0, o1, _, _⟩ := idx_out t
  show (cfg0.win 2).cut (grid0.coords t) ((dat0 V c).after 2 t) = _
  rw [after0_2]
  funext y
  rw [View.read_apply]
  show ((outsAt0 V c t.val t.isLt).1 : Vec Ideal S8x1024 .f32) y = Gmin x (((cfg0.win 2).blk t).view.emb y)
  have hy0 : (y 0).val < 8 := (y 0).isLt
  have e := (outs_eq V c x hA h1 t.val t.isLt (y 0) (y 1) ⟨8 * (t.val / 8) + (y 0).val, by omega⟩ rfl).1
  refine ((congrArg ((outsAt0 V c t.val t.isLt).1 : Vec Ideal S8x1024 .f32) (eq_ix2 (n0 := 8) (n1 := 1024) y)).trans e).trans ?_
  exact rowMin_of x _ _ _ _ (128 * (t.val % 8) + 128) (by omega)
    (by show 8 * (t.val / 8) + (y 0).val = win0_2.index t 0 * 8 + 1 * (y 0).val; rw [o0]; omega)
    (by show (y 1).val = win0_2.index t 1 * 1024 + 1 * (y 1).val; rw [o1]; omega)

/-- And to the second its block of the column maxima. -/
theorem flushed3_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w))
    (t : Fin cfg0.N) (hf : (cfg0.win 3).flush t = true) :
    (dat0 V c).flushed 3 t = ((cfg0.win 3).blk t).view.read (Elt Ideal) (Gmax x) := by
  have h7 : t.val % 8 = 7 := (flush0_3 t).mp hf
  have hN : t.val < 16 := lt_of_lt_of_eq t.isLt (show cfg0.N = 16 from N_0)
  obtain ⟨_, _, o0, o1⟩ := idx_out t
  show (cfg0.win 3).cut (grid0.coords t) ((dat0 V c).after 3 t) = _
  rw [after0_3]
  funext y
  rw [View.read_apply]
  show ((outsAt0 V c t.val t.isLt).2 : Vec Ideal S8x1024 .f32) y = Gmax x (((cfg0.win 3).blk t).view.emb y)
  have hy0 : (y 0).val < 8 := (y 0).isLt
  have e := (outs_eq V c x hA h1 t.val t.isLt (y 0) (y 1) ⟨8 * (t.val / 8) + (y 0).val, by omega⟩ rfl).2
  refine ((congrArg ((outsAt0 V c t.val t.isLt).2 : Vec Ideal S8x1024 .f32) (eq_ix2 (n0 := 8) (n1 := 1024) y)).trans e).trans ?_
  exact rowMax_of x _ _ _ _ (128 * (t.val % 8) + 128) (by omega)
    (by show 8 * (t.val / 8) + (y 0).val = win0_3.index t 0 * 8 + 1 * (y 0).val; rw [o0]; omega)
    (by show (y 1).val = win0_3.index t 1 * 1024 + 1 * (y 1).val; rw [o1]; omega)

/-- Every entry `(b, w)` of the first result array lies in the block that the last point of `b`'s group writes back. -/
theorem cover2 (i : S16x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  obtain ⟨t, ht⟩ : ∃ t : Fin cfg0.N, t.val = 8 * ((i 0).val / 8) + 7 :=
    ⟨⟨8 * ((i 0).val / 8) + 7, by rw [show cfg0.N = 16 from N_0]; omega⟩, rfl⟩
  obtain ⟨o0, o1, _, _⟩ := idx_out t
  refine ⟨t, (flush0_2 t).mpr (by omega), ?_⟩
  show i ∈ ((View.whole main_v2_0).slice (win0_2.rect t)).set
  rw [View.set_slice_whole, Rect.mem_set_unit]
  intro a
  match a with
  | ⟨0, _⟩ => show win0_2.index t 0 * 8 ≤ (i 0).val ∧ (i 0).val < win0_2.index t 0 * 8 + 8; rw [o0]; omega
  | ⟨1, _⟩ => show win0_2.index t 1 * 1024 ≤ (i 1).val ∧ (i 1).val < win0_2.index t 1 * 1024 + 1024; rw [o1]; omega

/-- The same for the second result array. -/
theorem cover3 (i : S16x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  obtain ⟨t, ht⟩ : ∃ t : Fin cfg0.N, t.val = 8 * ((i 0).val / 8) + 7 :=
    ⟨⟨8 * ((i 0).val / 8) + 7, by rw [show cfg0.N = 16 from N_0]; omega⟩, rfl⟩
  obtain ⟨_, _, o0, o1⟩ := idx_out t
  refine ⟨t, (flush0_3 t).mpr (by omega), ?_⟩
  show i ∈ ((View.whole main_v2_1).slice (win0_3.rect t)).set
  rw [View.set_slice_whole, Rect.mem_set_unit]
  intro a
  match a with
  | ⟨0, _⟩ => show win0_3.index t 0 * 8 ≤ (i 0).val ∧ (i 0).val < win0_3.index t 0 * 8 + 8; rw [o0]; omega
  | ⟨1, _⟩ => show win0_3.index t 1 * 1024 ≤ (i 1).val ∧ (i 1).val < win0_3.index t 1 * 1024 + 1024; rw [o1]; omega

/-- If the region is entered with the argument array at `x` and the sliced buffer at batch 0's frame 2, the first result
    array ends holding each batch's column minima over its 1024 rows. -/
theorem arr2_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w)) :
    (dat0 V c).arrAt 2 cfg0.N = fun j => rowMin x ⟨(j 0).val, (j 0).isLt⟩ ⟨(j 1).val, (j 1).isLt⟩ :=
  (dat0 V c).arrAt_eq_of_cover 2 (Gmin x) (flushed2_eq V c x hA h1) cover2

/-- And the second each batch's column maxima. -/
theorem arr3_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w)) :
    (dat0 V c).arrAt 3 cfg0.N = fun j => rowMax x ⟨(j 0).val, (j 0).isLt⟩ ⟨(j 1).val, (j 1).isLt⟩ :=
  (dat0 V c).arrAt_eq_of_cover 3 (Gmax x) (flushed3_eq V c x hA h1) cover3

end Cert.KernelIdeal.Value0

end
-- ==== Proof.Region1Piece.lean ====
/-
  What one grid point of the normalising kernel leaves in its output block, read at an index.
-/
import proofs.«171341_j63909113364757_2_alg».proof.Proof.Spec
import proofs.«171341_j63909113364757_2_alg».proof.Proof.KernelIdealFrame
import Idealize.ShloMosaic.Lib.Pipeline.Value
import Idealize.ShloMosaic.Lib.ValueLayout

noncomputable section

namespace Cert.KernelIdeal.Piece1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Norm

/-! ## Shape casts across two or three leading unit axes, read at an index -/

section Layout
variable {α : Type}

/-- A `[1, 1, 1, a, b]` array cast to `[a, b]` reads, at `(i, j)`, the operand at `(0, 0, 0, i, j)`. -/
theorem shapeCast_111ab_ab_apply {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Layout

/-! ## The payload's three ingredients at an index -/

/-- The normalising payload at an index: the tile's value less the column's least value, over the column's scale. -/
theorem normPay_apply (lo sc : FVec Ideal S1x1024 .f32) (t : FVec Ideal S128x1024 .f32)
    (a b : Fin 1) (r : Fin 128) (w : Fin 1024) :
    shapeCast S1x1x128x1024 (divf (subf t (broadcastTo S128x1024 lo broadcasts_S1x1024_S128x1024))
        (broadcastTo S128x1024 sc broadcasts_S1x1024_S128x1024))
      shapeCasts_S128x1024_S1x1x128x1024 (ix4 a b r w)
    = Ideal.div (t (ix2 r w) - lo (ix2 (0 : Fin 1) w)) (sc (ix2 (0 : Fin 1) w)) := by
  refine (shapeCast_ab_11ab_apply _ _ a b r w).trans ?_
  rw [divf_apply, subf_apply, broadcastTo_1b_ab_apply, broadcastTo_1b_ab_apply]

/-- The offsets of a whole-row load are zero. -/
theorem zero_off2 : (![0, 0] : Fin S1x1024.rank → Nat) = fun _ => 0 := by
  funext a; match a with | ⟨0, _⟩ => rfl | ⟨1, _⟩ => rfl

/-- The whole-row load of a one-row block reads the block. -/
theorem ld_row (x : Vec Ideal S1x1024 .f32) : View.ld x r1_1 = x := View.ld_unit_zero zero_off2 _ x

/-- The least-value row the kernel subtracts is the block `x2`. -/
theorem lo_eq (x2 : Vec Ideal S1x1024 .f32) : k1_pay1 (F := Ideal) (View.ld x2 r1_1) = x2 :=
  (shapeCast_self _ _).trans (ld_row x2)

/-- The scale row the kernel divides by is, column by column, the scale of `x2`'s and `x3`'s values there. -/
theorem scale_apply (x2 x3 : Vec Ideal S1x1024 .f32) (u : Fin 1) (w : Fin 1024) :
    k1_pay2 (F := Ideal) (View.ld x2 r1_1) (View.ld x3 r1_1) (ix2 u w) = scaleOf (x2 (ix2 u w)) (x3 (ix2 u w)) := by
  rw [ld_row x2, ld_row x3]
  unfold k1_pay2 k1_pay1
  simp only [shapeCast_self]
  rfl

/-! ## Where a row's rectangle sits -/

/-- Row `k` of the output block, read at the local index `(a, b, r, w)`, sits at `(k, 0, r, w)`. -/
theorem emb_row (k : Nat) (hk : k < 8)
    (inb : ∀ a, (![k, 0, 0, 0] : Fin S8x1x128x1024.rank → Nat) a + S1x1x128x1024.size a ≤ S8x1x128x1024.size a)
    (a b : Fin 1) (r : Fin 128) (w : Fin 1024) :
    (Rect.unit (s := S8x1x128x1024) ![k, 0, 0, 0] S1x1x128x1024.size inb).emb (ix4 a b r w)
      = ix4 (⟨k, hk⟩ : Fin 8) (0 : Fin 1) r w := by
  have ha : a.val = 0 := by omega
  have hb : b.val = 0 := by omega
  funext ax
  refine Fin.ext ?_
  match ax with
  | ⟨0, _⟩ => show k + 1 * a.val = k; omega
  | ⟨1, _⟩ => show 0 + 1 * b.val = 0; omega
  | ⟨2, _⟩ => show 0 + 1 * r.val = r.val; omega
  | ⟨3, _⟩ => show 0 + 1 * w.val = w.val; omega

/-- Row `k` of the frame-0 block, loaded and read at `(0, 0, 0, r, w)`, is the block at `(k, 0, 0, r, w)`. -/
theorem ld_row_x0 (x0 : Vec Ideal S8x1x1x128x1024 .f32) (k : Nat) (hk : k < 8)
    (inb : ∀ a, (![k, 0, 0, 0, 0] : Fin S8x1x1x128x1024.rank → Nat) a + S1x1x1x128x1024.size a ≤ S8x1x1x128x1024.size a)
    (r : Fin 128) (w : Fin 1024) :
    View.ld x0 (Rect.unit (s := S8x1x1x128x1024) ![k, 0, 0, 0, 0] S1x1x1x128x1024.size inb)
        (ix5 (0 : Fin 1) (0 : Fin 1) (0 : Fin 1) r w)
      = x0 (ix5 (⟨k, hk⟩ : Fin 8) (0 : Fin 1) (0 : Fin 1) r w) := by
  refine congrArg x0 (funext fun ax => Fin.ext ?_)
  match ax with
  | ⟨0, _⟩ => show k + 1 * 0 = k; omega
  | ⟨1, _⟩ => show 0 + 1 * 0 = 0; omega
  | ⟨2, _⟩ => show 0 + 1 * 0 = 0; omega
  | ⟨3, _⟩ => show 0 + 1 * r.val = r.val; omega
  | ⟨4, _⟩ => show 0 + 1 * w.val = w.val; omega

/-! ## The block as one function of its index -/

/-- What the output block holds at each of its indices: the tile's value at the index's batch row, tile row and column,
    normalised by that column's least and greatest values. -/
def blockVal (g : Nat) (x0 : Vec Ideal S8x1x1x128x1024 .f32) (x1 : Vec Ideal S1x1x128x1024 .f32)
    (x2 x3 : Vec Ideal S1x1024 .f32) : Vec Ideal S8x1x128x1024 .f32 := fun y =>
  normOf (tileVal g x0 x1 ⟨(y 0).val, (y 0).isLt⟩ ⟨(y 2).val, (y 2).isLt⟩ ⟨(y 3).val, (y 3).isLt⟩)
    (x2 (ix2 (0 : Fin 1) ⟨(y 3).val, (y 3).isLt⟩)) (x3 (ix2 (0 : Fin 1) ⟨(y 3).val, (y 3).isLt⟩))

/-- The block function at an index given by coordinates. -/
theorem blockVal_ix4 (g : Nat) (x0 : Vec Ideal S8x1x1x128x1024 .f32) (x1 : Vec Ideal S1x1x128x1024 .f32)
    (x2 x3 : Vec Ideal S1x1024 .f32) (p : Fin 8) (u : Fin 1) (r : Fin 128) (w : Fin 1024) :
    blockVal g x0 x1 x2 x3 (ix4 p u r w)
      = normOf (tileVal g x0 x1 p r w) (x2 (ix2 (0 : Fin 1) w)) (x3 (ix2 (0 : Fin 1) w)) := rfl

/-! ## Each store's payload is its rows of the block function -/

/-- A store of a batch row `k ≥ 1`: the row of frame 0, normalised. -/
theorem rowPiece_apply (g : Nat) (x0 : Vec Ideal S8x1x1x128x1024 .f32) (x1 : Vec Ideal S1x1x128x1024 .f32)
    (x2 x3 : Vec Ideal S1x1024 .f32) (k : Nat) (hk0 : k ≠ 0) (hk : k < 8)
    (inbI : ∀ a, (![k, 0, 0, 0, 0] : Fin S8x1x1x128x1024.rank → Nat) a + S1x1x1x128x1024.size a ≤ S8x1x1x128x1024.size a)
    (inbO : ∀ a, (![k, 0, 0, 0] : Fin S8x1x128x1024.rank → Nat) a + S1x1x128x1024.size a ≤ S8x1x128x1024.size a)
    (x : S1x1x128x1024.Idx) :
    shapeCast S1x1x128x1024 (divf (subf (shapeCast S128x1024
          (View.ld x0 (Rect.unit (s := S8x1x1x128x1024) ![k, 0, 0, 0, 0] S1x1x1x128x1024.size inbI))
          shapeCasts_S1x1x1x128x1024_S128x1024)
        (broadcastTo S128x1024 (k1_pay1 (F := Ideal) (View.ld x2 r1_1)) broadcasts_S1x1024_S128x1024))
        (broadcastTo S128x1024 (k1_pay2 (F := Ideal) (View.ld x2 r1_1) (View.ld x3 r1_1)) broadcasts_S1x1024_S128x1024))
      shapeCasts_S128x1024_S1x1x128x1024 x
    = blockVal g x0 x1 x2 x3 ((Rect.unit (s := S8x1x128x1024) ![k, 0, 0, 0] S1x1x128x1024.size inbO).emb x) := by
  obtain ⟨a, b, r, w, rfl⟩ : ∃ (a b : Fin 1) (r : Fin 128) (w : Fin 1024), x = ix4 a b r w :=
    ⟨x 0, x 1, x 2, x 3, eq_ix4 x⟩
  refine (normPay_apply _ _ _ a b r w).trans ?_
  rw [emb_row k hk inbO a b r w, blockVal_ix4, lo_eq, scale_apply, shapeCast_111ab_ab_apply, ld_row_x0 x0 k hk inbI r w]
  unfold normOf tileVal
  rw [if_neg (show ¬((⟨k, hk⟩ : Fin 8).val = 0) from hk0)]

/-- The offsets of a whole-tile load are zero. -/
theorem zero_off4 : (![0, 0, 0, 0] : Fin S1x1x128x1024.rank → Nat) = fun _ => 0 := by
  funext a; match a with | ⟨0, _⟩ => rfl | ⟨1, _⟩ => rfl | ⟨2, _⟩ => rfl | ⟨3, _⟩ => rfl

/-- Batch row 0's tile value before normalising: the difference of the two frames at group 0, frame 0 at the other
    group. -/
theorem tile0_apply (i : grid1.Coords) (x0 : Vec Ideal S8x1x1x128x1024 .f32) (x1 : Vec Ideal S1x1x128x1024 .f32)
    (r : Fin 128) (w : Fin 1024) :
    (Scalar.select (Scalar.cmpi .eq (BitVec.ofNat 32 (i 0).val) 0#32)
        (subf (shapeCast S128x1024 (View.ld x1 r1_0) shapeCasts_S1x1x128x1024_S128x1024)
          (shapeCast S128x1024 (View.ld x0 r1_2) shapeCasts_S1x1x1x128x1024_S128x1024))
        (shapeCast S128x1024 (View.ld x0 r1_2) shapeCasts_S1x1x1x128x1024_S128x1024) : FVec Ideal S128x1024 .f32) (ix2 r w)
      = tileVal (i 0).val x0 x1 (0 : Fin 8) r w := by
  have hg : (i 0).val < 2 := (i 0).isLt
  have h1 : View.ld x1 r1_0 = x1 := View.ld_unit_zero zero_off4 _ x1
  have hx0 : shapeCast S128x1024 (View.ld x0 r1_2) shapeCasts_S1x1x1x128x1024_S128x1024 (ix2 r w)
      = x0 (ix5 (0 : Fin 8) (0 : Fin 1) (0 : Fin 1) r w) :=
    (shapeCast_111ab_ab_apply _ _ r w).trans (ld_row_x0 x0 0 (by omega) _ r w)
  rw [h1]
  refine (congrFun (select_eq0 (i 0).val hg _ _) (ix2 r w)).trans ?_
  unfold tileVal
  rw [if_pos (show ((0 : Fin 8).val = 0) from rfl)]
  by_cases h0 : (i 0).val = 0
  · rw [if_pos h0, if_pos h0, subf_apply, hx0, shapeCast_11ab_ab_apply]
  · rw [if_neg h0, if_neg h0, hx0]

/-- The store of batch row 0: the tile value above, normalised. -/
theorem row0Piece_apply (i : grid1.Coords) (x0 : Vec Ideal S8x1x1x128x1024 .f32) (x1 : Vec Ideal S1x1x128x1024 .f32)
    (x2 x3 : Vec Ideal S1x1024 .f32) (x : S1x1x128x1024.Idx) :
    k1_pay3 (F := Ideal) i (View.ld x1 r1_0) (View.ld x2 r1_1) (View.ld x3 r1_1) (View.ld x0 r1_2) x
      = blockVal (i 0).val x0 x1 x2 x3 (r1_3.emb x) := by
  obtain ⟨a, b, r, w, rfl⟩ : ∃ (a b : Fin 1) (r : Fin 128) (w : Fin 1024), x = ix4 a b r w :=
    ⟨x 0, x 1, x 2, x 3, eq_ix4 x⟩
  unfold k1_pay3
  refine (normPay_apply _ _ _ a b r w).trans ?_
  rw [emb_row 0 (by omega) _ a b r w, blockVal_ix4, lo_eq, scale_apply, tile0_apply]
  rfl

/-! ## The block at an index -/

/-- The output block at batch row `p`, tile row `r`, column `w` is the tile's value there, normalised by the column's
    least value `x2[0, w]` and greatest value `x3[0, w]`. -/
theorem out1_4_apply (i : grid1.Coords) (x0 : Vec Ideal S8x1x1x128x1024 .f32) (x1 : Vec Ideal S1x1x128x1024 .f32)
    (x2 : Vec Ideal S1x1024 .f32) (x3 : Vec Ideal S1x1024 .f32) (p : Fin 8) (r : Fin 128) (w : Fin 1024) :
    out1_4 (F := Ideal) i x0 x1 x2 x3 (ix4 p (0 : Fin 1) r w)
      = normOf (tileVal (i 0).val x0 x1 p r w) (x2 (ix2 (0 : Fin 1) w)) (x3 (ix2 (0 : Fin 1) w)) := by
  unfold out1_4
  refine (View.canon_apply_of_pieces (blockVal (i 0).val x0 x1 x2 x3) _ ?_ _ (cover1_4 _ _ _ _ _ _ _ _ _)).trans
    (blockVal_ix4 _ _ _ _ _ p 0 r w)
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    fun _ h => absurd h List.not_mem_nil⟩⟩⟩⟩⟩⟩⟩⟩
  · exact fun x => rowPiece_apply _ x0 x1 x2 x3 7 (by omega) (by omega)
      inb_S8x1x1x128x1024_S1x1x1x128x1024_7_0_0_0_0 inb_S8x1x128x1024_S1x1x128x1024_7_0_0_0 x
  · exact fun x => rowPiece_apply _ x0 x1 x2 x3 6 (by omega) (by omega)
      inb_S8x1x1x128x1024_S1x1x1x128x1024_6_0_0_0_0 inb_S8x1x128x1024_S1x1x128x1024_6_0_0_0 x
  · exact fun x => rowPiece_apply _ x0 x1 x2 x3 5 (by omega) (by omega)
      inb_S8x1x1x128x1024_S1x1x1x128x1024_5_0_0_0_0 inb_S8x1x128x1024_S1x1x128x1024_5_0_0_0 x
  · exact fun x => rowPiece_apply _ x0 x1 x2 x3 4 (by omega) (by omega)
      inb_S8x1x1x128x1024_S1x1x1x128x1024_4_0_0_0_0 inb_S8x1x128x1024_S1x1x128x1024_4_0_0_0 x
  · exact fun x => rowPiece_apply _ x0 x1 x2 x3 3 (by omega) (by omega)
      inb_S8x1x1x128x1024_S1x1x1x128x1024_3_0_0_0_0 inb_S8x1x128x1024_S1x1x128x1024_3_0_0_0 x
  · exact fun x => rowPiece_apply _ x0 x1 x2 x3 2 (by omega) (by omega)
      inb_S8x1x1x128x1024_S1x1x1x128x1024_2_0_0_0_0 inb_S8x1x128x1024_S1x1x128x1024_2_0_0_0 x
  · exact fun x => rowPiece_apply _ x0 x1 x2 x3 1 (by omega) (by omega)
      inb_S8x1x1x128x1024_S1x1x1x128x1024_1_0_0_0_0 inb_S8x1x128x1024_S1x1x128x1024_1_0_0_0 x
  · exact fun x => row0Piece_apply i x0 x1 x2 x3 x

end Cert.KernelIdeal.Piece1

end
-- ==== Proof.Region1Value.lean ====
/-
  The normalising kernel's result array: every value normalised by its column's least and greatest value.
-/
import proofs.«171341_j63909113364757_2_alg».proof.Proof.Spec
import proofs.«171341_j63909113364757_2_alg».proof.Proof.KernelIdealFrame
import proofs.«171341_j63909113364757_2_alg».proof.Proof.Region1Piece
import Idealize.ShloMosaic.Lib.Pipeline.Value

noncomputable section

namespace Cert.KernelIdeal.Value1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Norm
open Cert.KernelIdeal.Piece1

variable (V : (c : Dev nD) → (b : Ref sig .tc) → Buf (Elt Ideal) ((c : Thread nD τ).loc b))

/-- The printed index maps over the 16 grid points: point `t` is group `t / 8`, row tile `t % 8`. -/
theorem idx_facts1 : ∀ t : Fin cfg1.N,
    win1_0.index t (0 : Fin 5) = t.val / 8 ∧ win1_0.index t (1 : Fin 5) = 0 ∧ win1_0.index t (2 : Fin 5) = 0
    ∧ win1_0.index t (3 : Fin 5) = t.val % 8 ∧ win1_0.index t (4 : Fin 5) = 0
    ∧ win1_1.index t (0 : Fin 4) = 0 ∧ win1_1.index t (1 : Fin 4) = 0 ∧ win1_1.index t (2 : Fin 4) = t.val % 8
    ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 4) = t.val / 8 ∧ win1_4.index t (1 : Fin 4) = 0 ∧ win1_4.index t (2 : Fin 4) = t.val % 8
    ∧ win1_4.index t (3 : Fin 4) = 0
    ∧ (grid1.coords t 0).val = t.val / 8 :=
  (by decide +kernel : ∀ t : Fin grid1.N, _)

/-- The argument array's block at point `t`, batch row `p`, tile row `r`, column `w`, is frame 0 of batch
    `8 (t / 8) + p` at row `128 (t % 8) + r`. -/
theorem iblk1_0_apply (c : Dev nD) (x : Arg) (hA : V c main_arg0 = x) (t : Fin cfg1.N) (p : Fin 8) (r : Fin 128) (w : Fin 1024) :
    iblk1 V c 0 t (ix5 p (0 : Fin 1) (0 : Fin 1) r w)
      = x (ix5 (⟨8 * (t.val / 8) + p.val, by have := t.isLt; have hN : cfg1.N = 16 := N_1; omega⟩ : Fin 16) (0 : Fin 1) (0 : Fin 3)
          (⟨128 * (t.val % 8) + r.val, by omega⟩ : Fin 1024) w) := by
  obtain ⟨e0, e1, e2, e3, e4, -⟩ := idx_facts1 t
  unfold iblk1
  rw [View.read_apply]
  show V c main_arg0 _ = x _
  rw [hA]
  congr 1
  funext a
  apply Fin.ext
  match a with
  | ⟨0, _⟩ => show win1_0.index t (0 : Fin 5) * 8 + 1 * p.val = 8 * (t.val / 8) + p.val; omega
  | ⟨1, _⟩ => show win1_0.index t (1 : Fin 5) * 1 + 1 * 0 = 0; omega
  | ⟨2, _⟩ => show win1_0.index t (2 : Fin 5) * 1 + 1 * 0 = 0; omega
  | ⟨3, _⟩ => show win1_0.index t (3 : Fin 5) * 128 + 1 * r.val = 128 * (t.val % 8) + r.val; omega
  | ⟨4, _⟩ => show win1_0.index t (4 : Fin 5) * 1024 + 1 * w.val = w.val; omega

/-- The sliced buffer's block at point `t`, row `r`, column `w`, is batch 0's frame 2 at row `128 (t % 8) + r`. -/
theorem iblk1_1_apply (c : Dev nD) (x : Arg)
    (h1 : ∀ (h w : Fin 1024), V c main_v1 (ix4 (0 : Fin 1) (0 : Fin 1) h w) = x (ix5 (0 : Fin 16) (0 : Fin 1) (2 : Fin 3) h w))
    (t : Fin cfg1.N) (r : Fin 128) (w : Fin 1024) :
    iblk1 V c 1 t (ix4 (0 : Fin 1) (0 : Fin 1) r w)
      = x (ix5 (0 : Fin 16) (0 : Fin 1) (2 : Fin 3) (⟨128 * (t.val % 8) + r.val, by omega⟩ : Fin 1024) w) := by
  obtain ⟨-, -, -, -, -, e0, e1, e2, e3, -⟩ := idx_facts1 t
  unfold iblk1
  rw [View.read_apply]
  show V c main_v1 _ = x _
  rw [← h1]
  congr 1
  funext a
  apply Fin.ext
  match a with
  | ⟨0, _⟩ => show win1_1.index t (0 : Fin 4) * 1 + 1 * 0 = 0; omega
  | ⟨1, _⟩ => show win1_1.index t (1 : Fin 4) * 1 + 1 * 0 = 0; omega
  | ⟨2, _⟩ => show win1_1.index t (2 : Fin 4) * 128 + 1 * r.val = 128 * (t.val % 8) + r.val; omega
  | ⟨3, _⟩ => show win1_1.index t (3 : Fin 4) * 1024 + 1 * w.val = w.val; omega

/-- The least-value buffer is staged whole at every point: its block reads `lo`. -/
theorem iblk1_2_apply (c : Dev nD) (lo : Fin 1024 → EReal) (h2 : ∀ w : Fin 1024, V c main_v4 (ix2 (0 : Fin 1) w) = lo w)
    (t : Fin cfg1.N) (w : Fin 1024) : iblk1 V c 2 t (ix2 (0 : Fin 1) w) = lo w := by
  obtain ⟨-, -, -, -, -, -, -, -, -, e0, e1, -⟩ := idx_facts1 t
  unfold iblk1
  rw [View.read_apply]
  show V c main_v4 _ = lo w
  rw [← h2]
  congr 1
  funext a
  apply Fin.ext
  match a with
  | ⟨0, _⟩ => show win1_2.index t (0 : Fin 2) * 1 + 1 * 0 = 0; omega
  | ⟨1, _⟩ => show win1_2.index t (1 : Fin 2) * 1024 + 1 * w.val = w.val; omega

/-- The greatest-value buffer is staged whole at every point: its block reads `hi`. -/
theorem iblk1_3_apply (c : Dev nD) (hi : Fin 1024 → EReal) (h3 : ∀ w : Fin 1024, V c main_v6 (ix2 (0 : Fin 1) w) = hi w)
    (t : Fin cfg1.N) (w : Fin 1024) : iblk1 V c 3 t (ix2 (0 : Fin 1) w) = hi w := by
  obtain ⟨-, -, -, -, -, -, -, -, -, -, -, e0, e1, -⟩ := idx_facts1 t
  unfold iblk1
  rw [View.read_apply]
  show V c main_v6 _ = hi w
  rw [← h3]
  congr 1
  funext a
  apply Fin.ext
  match a with
  | ⟨0, _⟩ => show win1_3.index t (0 : Fin 2) * 1 + 1 * 0 = 0; omega
  | ⟨1, _⟩ => show win1_3.index t (1 : Fin 2) * 1024 + 1 * w.val = w.val; omega

/-- The tile's value array at point `t` is the value array at batch `8 (t / 8) + p`, row `128 (t % 8) + r`: batch
    `8 g + p` is batch 0 exactly when `g = 0` and `p = 0`. -/
theorem tile_eq (c : Dev nD) (x : Arg) (hA : V c main_arg0 = x)
    (h1 : ∀ (h w : Fin 1024), V c main_v1 (ix4 (0 : Fin 1) (0 : Fin 1) h w) = x (ix5 (0 : Fin 16) (0 : Fin 1) (2 : Fin 3) h w))
    (t : Fin cfg1.N) (p : Fin 8) (r : Fin 128) (w : Fin 1024) :
    tileVal (grid1.coords t 0).val (iblk1 V c 0 t) (iblk1 V c 1 t) p r w
      = sval x (⟨8 * (t.val / 8) + p.val, by have := t.isLt; have hN : cfg1.N = 16 := N_1; omega⟩ : Fin 16)
          (⟨128 * (t.val % 8) + r.val, by omega⟩ : Fin 1024) w := by
  have hg : (grid1.coords t 0).val = t.val / 8 := (idx_facts1 t).2.2.2.2.2.2.2.2.2.2.2.2.2.2.2.2.2
  unfold tileVal sval
  rw [iblk1_0_apply V c x hA t p r w, iblk1_0_apply V c x hA t (0 : Fin 8) r w, iblk1_1_apply V c x h1 t r w, hg]
  by_cases hp : p.val = 0
  · by_cases hq : t.val / 8 = 0
    · have hb : (⟨8 * (t.val / 8) + (0 : Fin 8).val, by have := t.isLt; have hN : cfg1.N = 16 := N_1; omega⟩ : Fin 16) = (0 : Fin 16) :=
        Fin.ext (by show 8 * (t.val / 8) + 0 = 0; omega)
      rw [if_pos hp, if_pos hq, if_pos (by show 8 * (t.val / 8) + p.val = 0; omega), hb]
    · have hb : (⟨8 * (t.val / 8) + (0 : Fin 8).val, by have := t.isLt; have hN : cfg1.N = 16 := N_1; omega⟩ : Fin 16)
          = (⟨8 * (t.val / 8) + p.val, by have := t.isLt; have hN : cfg1.N = 16 := N_1; omega⟩ : Fin 16) :=
        Fin.ext (by show 8 * (t.val / 8) + 0 = 8 * (t.val / 8) + p.val; omega)
      rw [if_pos hp, if_neg hq, if_neg (by show ¬ 8 * (t.val / 8) + p.val = 0; omega), hb]
  · rw [if_neg hp, if_neg (by show ¬ 8 * (t.val / 8) + p.val = 0; omega)]

/-- What the result array ends holding: every value normalised by its column's `lo` and `hi`. -/
abbrev G1 (x : Arg) (lo hi : Fin 1024 → EReal) : (⟨4, ![16, 1, 1024, 1024]⟩ : Shape).Idx → EReal :=
  fun j => normOf (sval x ⟨(j 0).val, (j 0).isLt⟩ ⟨(j 2).val, (j 2).isLt⟩ ⟨(j 3).val, (j 3).isLt⟩)
    (lo ⟨(j 3).val, (j 3).isLt⟩) (hi ⟨(j 3).val, (j 3).isLt⟩)

/-- What point `t` writes back is block `t` of `G1`: each stored element is the tile's value normalised by the column's
    `lo` and `hi`, and the block's element `(p, 0, r, w)` sits in the array at `(8 (t / 8) + p, 0, 128 (t % 8) + r, w)`. -/
theorem flushed1_4_eq (c : Dev nD) (x : Arg) (lo hi : Fin 1024 → EReal) (hA : V c main_arg0 = x)
    (h1 : ∀ (h w : Fin 1024), V c main_v1 (ix4 (0 : Fin 1) (0 : Fin 1) h w) = x (ix5 (0 : Fin 16) (0 : Fin 1) (2 : Fin 3) h w))
    (h2 : ∀ w : Fin 1024, V c main_v4 (ix2 (0 : Fin 1) w) = lo w)
    (h3 : ∀ w : Fin 1024, V c main_v6 (ix2 (0 : Fin 1) w) = hi w) (t : Fin cfg1.N) :
    (dat1 V c).flushed 4 t = ((cfg1.win 4).blk t).view.read (Elt Ideal) (G1 x lo hi) := by
  show (cfg1.win 4).cut (grid1.coords t) ((dat1 V c).after 4 t) = _
  rw [after1_4]
  funext j
  obtain ⟨p, q, r, w, rfl⟩ : ∃ (p : Fin 8) (q : Fin 1) (r : Fin 128) (w : Fin 1024), j = ix4 p q r w := ⟨j 0, j 1, j 2, j 3, eq_ix4 j⟩
  obtain rfl : q = 0 := Subsingleton.elim _ _
  obtain ⟨-, -, -, -, -, -, -, -, -, -, -, -, -, e0, e1, e2, e3, -⟩ := idx_facts1 t
  have hemb : ((cfg1.win 4).blk t).view.emb (ix4 p (0 : Fin 1) r w)
      = ix4 (⟨8 * (t.val / 8) + p.val, by have := t.isLt; have hN : cfg1.N = 16 := N_1; omega⟩ : Fin 16) (0 : Fin 1)
          (⟨128 * (t.val % 8) + r.val, by omega⟩ : Fin 1024) w := by
    funext a
    apply Fin.ext
    match a with
    | ⟨0, _⟩ => show win1_4.index t (0 : Fin 4) * 8 + 1 * p.val = 8 * (t.val / 8) + p.val; omega
    | ⟨1, _⟩ => show win1_4.index t (1 : Fin 4) * 1 + 1 * 0 = 0; omega
    | ⟨2, _⟩ => show win1_4.index t (2 : Fin 4) * 128 + 1 * r.val = 128 * (t.val % 8) + r.val; omega
    | ⟨3, _⟩ => show win1_4.index t (3 : Fin 4) * 1024 + 1 * w.val = w.val; omega
  rw [View.read_apply]
  show out1_4 (F := Ideal) (grid1.coords t) (iblk1 V c 0 t) (iblk1 V c 1 t) (iblk1 V c 2 t) (iblk1 V c 3 t) (ix4 p (0 : Fin 1) r w)
    = G1 x lo hi (((cfg1.win 4).blk t).view.emb (ix4 p (0 : Fin 1) r w))
  refine (out1_4_apply (grid1.coords t) (iblk1 V c 0 t) (iblk1 V c 1 t) (iblk1 V c 2 t) (iblk1 V c 3 t) p r w).trans ?_
  rw [tile_eq V c x hA h1 t p r w, iblk1_2_apply V c lo h2 t w, iblk1_3_apply V c hi h3 t w, hemb]

/-- An index of the result array is in point `t`'s block iff each coordinate is in the block's range on its axis. -/
theorem mem_blk1_4 (t : Fin cfg1.N) (i : S16x1x1024x1024.Idx) :
    i ∈ ((cfg1.win 4).blk t).view.set ↔ ∀ a : Fin 4, win1_4.index t a * S8x1x128x1024.size a ≤ (i a).val
      ∧ (i a).val < win1_4.index t a * S8x1x128x1024.size a + S8x1x128x1024.size a := by
  show i ∈ ((View.whole main_v7).slice (win1_4.rect t)).set ↔ _
  rw [View.set_slice_whole, Rect.mem_set_unit]
  exact Iff.rfl

/-- Every index of the result array is in the block of the point of its batch's group and its row's tile. -/
theorem cover1_4_arr (i : S16x1x1024x1024.Idx) :
    ∃ t : Fin cfg1.N, (cfg1.win 4).flush t = true ∧ i ∈ ((cfg1.win 4).blk t).view.set := by
  have hN : cfg1.N = 16 := N_1
  have hi0 : (i 0).val < 16 := (i 0).isLt
  have hi1 : (i 1).val < 1 := (i 1).isLt
  have hi2 : (i 2).val < 1024 := (i 2).isLt
  have hi3 : (i 3).val < 1024 := (i 3).isLt
  refine ⟨⟨8 * ((i 0).val / 8) + (i 2).val / 128, by omega⟩, flush1_4 _, ?_⟩
  rw [mem_blk1_4]
  obtain ⟨-, -, -, -, -, -, -, -, -, -, -, -, -, e0, e1, e2, e3, -⟩ :=
    idx_facts1 ⟨8 * ((i 0).val / 8) + (i 2).val / 128, by omega⟩
  intro a
  match a with
  | ⟨0, _⟩ =>
    show win1_4.index _ (0 : Fin 4) * 8 ≤ (i 0).val ∧ (i 0).val < win1_4.index _ (0 : Fin 4) * 8 + 8
    rw [e0]; show (8 * ((i 0).val / 8) + (i 2).val / 128) / 8 * 8 ≤ (i 0).val ∧ (i 0).val < (8 * ((i 0).val / 8) + (i 2).val / 128) / 8 * 8 + 8
    omega
  | ⟨1, _⟩ =>
    show win1_4.index _ (1 : Fin 4) * 1 ≤ (i 1).val ∧ (i 1).val < win1_4.index _ (1 : Fin 4) * 1 + 1
    rw [e1]; omega
  | ⟨2, _⟩ =>
    show win1_4.index _ (2 : Fin 4) * 128 ≤ (i 2).val ∧ (i 2).val < win1_4.index _ (2 : Fin 4) * 128 + 128
    rw [e2]; show (8 * ((i 0).val / 8) + (i 2).val / 128) % 8 * 128 ≤ (i 2).val ∧ (i 2).val < (8 * ((i 0).val / 8) + (i 2).val / 128) % 8 * 128 + 128
    omega
  | ⟨3, _⟩ =>
    show win1_4.index _ (3 : Fin 4) * 1024 ≤ (i 3).val ∧ (i 3).val < win1_4.index _ (3 : Fin 4) * 1024 + 1024
    rw [e3]; omega

/-- If the region is entered with the argument array at `x`, the sliced buffer at batch 0's frame 2, and the two one-row
    buffers at per-column values `lo` and `hi`, the result array ends holding every value normalised by them. -/
theorem arr4_eq (c : Dev nD) (x : Arg) (lo hi : Fin 1024 → EReal) (hA : V c main_arg0 = x)
    (h1 : ∀ (h w : Fin 1024), V c main_v1 (ix4 (0 : Fin 1) (0 : Fin 1) h w) = x (ix5 (0 : Fin 16) (0 : Fin 1) (2 : Fin 3) h w))
    (h2 : ∀ w : Fin 1024, V c main_v4 (ix2 (0 : Fin 1) w) = lo w)
    (h3 : ∀ w : Fin 1024, V c main_v6 (ix2 (0 : Fin 1) w) = hi w) :
    (dat1 V c).arrAt 4 cfg1.N = fun j => normOf (sval x ⟨(j 0).val, (j 0).isLt⟩ ⟨(j 2).val, (j 2).isLt⟩ ⟨(j 3).val, (j 3).isLt⟩)
      (lo ⟨(j 3).val, (j 3).isLt⟩) (hi ⟨(j 3).val, (j 3).isLt⟩) :=
  (dat1 V c).arrAt_eq_of_cover 4 (G1 x lo hi) (fun t _ => flushed1_4_eq V c x lo hi hA h1 h2 h3 t) cover1_4_arr

end Cert.KernelIdeal.Value1

end
-- ==== Proof.KernelValue.lean ====
/-
  The idealized kernel's run, read: its result array ends holding the specification's result of the argument array.

  The reduction kernel leaves each batch's column minima and maxima; the host takes their minimum and maximum over the
  batches, which are the columns' least and greatest values over every batch and row; the normalising kernel,
  entered with those two rows, leaves every value normalised by them.
-/
import proofs.«171341_j63909113364757_2_alg».proof.Proof.HostStretch
import proofs.«171341_j63909113364757_2_alg».proof.Proof.Region0Value
import proofs.«171341_j63909113364757_2_alg».proof.Proof.Region1Value

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.GenP Cert.KernelIdeal.Host Cert.Norm

variable (m : (ℓ : Loc nD τ sig) → Buf (Elt Ideal) ℓ) (ρ : Dev nD → PrngReg)

/-- The argument array's launch contents on core `c`. -/
abbrev arg (c : Dev nD) : Arg := m ((c : Thread nD τ).loc main_arg0)

/-- The reduction kernel's first result array: each batch's column minima. -/
theorem rowMins (c : Dev nD) :
    (dat0 (V1 m ρ) c).arrAt 2 cfg0.N = fun j => rowMin (arg m c) ⟨(j 0).val, (j 0).isLt⟩ ⟨(j 1).val, (j 1).isLt⟩ :=
  Cert.KernelIdeal.Value0.arr2_eq (V1 m ρ) c (arg m c) (V1_arg0 m ρ c) (fun h w => V1_v1_apply m ρ c h w)

/-- Its second: each batch's column maxima. -/
theorem rowMaxs (c : Dev nD) :
    (dat0 (V1 m ρ) c).arrAt 3 cfg0.N = fun j => rowMax (arg m c) ⟨(j 0).val, (j 0).isLt⟩ ⟨(j 1).val, (j 1).isLt⟩ :=
  Cert.KernelIdeal.Value0.arr3_eq (V1 m ρ) c (arg m c) (V1_arg0 m ρ c) (fun h w => V1_v1_apply m ρ c h w)

/-- The result array after the run. -/
theorem final (c : Dev nD) : W4 m ρ c (Proc.devRef .tc main_v7) = result (arg m c) := by
  rw [W4_main_v7]
  exact Cert.KernelIdeal.Value1.arr4_eq (V3 m ρ) c (arg m c) (colMin (arg m c)) (colMax (arg m c)) (V3_arg0 m ρ c)
    (fun h w => (congrFun (V3_v1 m ρ c) _).trans (V1_v1_apply m ρ c h w))
    (fun w => V3_v4_apply m ρ c _ (rowMins m ρ c) w)
    (fun w => V3_v6_apply m ρ c _ (rowMaxs m ρ c) w)

/-- Every weakly fair execution of the idealized kernel terminates with the result array at the specification's result
    of the argument array and the argument array as launched. -/
theorem run : θ_run defs (onTc (τ := τ) (main (F := Ideal))) ⟨m, fun _ => 0, ρ⟩ fun r => ∀ c : Dev nD,
      r.2.mem ((c.tc : Thread nD τ).loc main_v7) = result (arg m c)
      ∧ r.2.mem ((c.tc : Thread nD τ).loc main_arg0) = m ((c.tc : Thread nD τ).loc main_arg0) :=
  (θ_run defs _ _).mono (fun _ h c => ⟨(h c).1.trans (final m ρ c), (h c).2⟩) (run_main m ρ)

end Cert.KernelIdeal.Value

end
-- ==== Proof.Reference.lean ====
/-
  The reference's value: what its result array holds, index by index, is the specification's result of the argument array.
-/
import proofs.«171341_j63909113364757_2_alg».proof.Proof.Spec
import proofs.«171341_j63909113364757_2_alg».proof.Proof.LibMinMax
import proofs.«171341_j63909113364757_2_alg».proof.Proof.Gen.ReferenceIdeal.Read
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Norm

/-- Row b·1024 + h of the flattened array. -/
def row (b : Fin 16) (h : Fin 1024) : Fin 16384 := ⟨b.val * 1024 + h.val, by omega⟩

theorem row_val (b : Fin 16) (h : Fin 1024) : (row b h).val = b.val * 1024 + h.val := rfl

/-- The signed test row < 1024, for a row below 16384. -/
theorem rowtest (r : Nat) (hr : r < 16384) :
    IntOp.cmpi .slt (BitVec.ofNat 32 r) 1024#32 = if r < 1024 then 1#1 else 0#1 := by
  have h0 : (BitVec.ofNat 32 r).toNat = r := by
    rw [BitVec.toNat_ofNat]; exact Nat.mod_eq_of_lt (by omega)
  have h1 : (BitVec.ofNat 32 r).toInt = (r : Int) := by
    rw [BitVec.toInt_eq_toNat_of_lt (by rw [h0]; omega), h0]
  have h2 : (1024#32).toInt = 1024 := by decide
  unfold IntOp.cmpi
  simp only [BitVec.slt, h1, h2]
  by_cases h : r < 1024
  · rw [if_pos h, decide_eq_true (by omega)]; rfl
  · rw [if_neg h, decide_eq_false (by omega)]; rfl

/-- An infimum over the 16384 rows is the iterated infimum over batch and row within the batch: every row is
    b·1024 + h for exactly one pair (b, h). -/
theorem iInf_rows (f : Fin 16384 → EReal) (g : Fin 16 → Fin 1024 → EReal) (hfg : ∀ b h, f (row b h) = g b h) :
    ⨅ k, f k = ⨅ b, ⨅ h, g b h := by
  apply le_antisymm
  · exact le_iInf fun b => le_iInf fun h => (iInf_le f (row b h)).trans_eq (hfg b h)
  · refine le_iInf fun k => ?_
    have hk : k = row ⟨k.val / 1024, by omega⟩ ⟨k.val % 1024, by omega⟩ := Fin.ext (by rw [row_val]; simp only; omega)
    rw [hk, hfg]
    exact (iInf_le _ _).trans (iInf_le _ _)

/-- The same for a supremum. -/
theorem iSup_rows (f : Fin 16384 → EReal) (g : Fin 16 → Fin 1024 → EReal) (hfg : ∀ b h, f (row b h) = g b h) :
    ⨆ k, f k = ⨆ b, ⨆ h, g b h := by
  apply le_antisymm
  · refine iSup_le fun k => ?_
    have hk : k = row ⟨k.val / 1024, by omega⟩ ⟨k.val % 1024, by omega⟩ := Fin.ext (by rw [row_val]; simp only; omega)
    rw [hk, hfg]
    exact le_trans (le_iSup (fun h => g _ h) _) (le_iSup (fun b => ⨆ h, g b h) _)
  · exact iSup_le fun b => iSup_le fun h => (hfg b h).symm.trans_le (le_iSup f (row b h))

/-- Frame 0 of the argument, read through the two reshapes at row b·1024 + h, column w. -/
theorem idx_f0 (b : Fin 16) (h w : Fin 1024) :
    idx_main_v0 (idx_main_v1 (idx_main_v2 (ix2 (row b h) w))) = ix5 b (0 : Fin 1) (0 : Fin 3) h w := by
  funext a
  refine Fin.ext ?_
  have hb := b.isLt; have hh := h.isLt; have hw := w.isLt
  match a with
  | ⟨0, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) / 1048576 = b.val; omega
  | ⟨1, _⟩ => rfl
  | ⟨2, _⟩ => rfl
  | ⟨3, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) / 1024 % 1024 = h.val; omega
  | ⟨4, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) % 1024 = w.val; omega

/-- Frame 2 of the argument, read through the two reshapes at row b·1024 + h, column w. -/
theorem idx_f2 (b : Fin 16) (h w : Fin 1024) :
    idx_main_v3 (idx_main_v4 (idx_main_v5 (ix2 (row b h) w))) = ix5 b (0 : Fin 1) (2 : Fin 3) h w := by
  funext a
  refine Fin.ext ?_
  have hb := b.isLt; have hh := h.isLt; have hw := w.isLt
  match a with
  | ⟨0, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) / 1048576 = b.val; omega
  | ⟨1, _⟩ => rfl
  | ⟨2, _⟩ => rfl
  | ⟨3, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) / 1024 % 1024 = h.val; omega
  | ⟨4, _⟩ => show ((((((b.val * 1024 + h.val) * 1024 + w.val) / 1048576) * 1 + 0) * 1024 + ((b.val * 1024 + h.val) * 1024 + w.val) / 1024 % 1024) * 1024 + ((b.val * 1024 + h.val) * 1024 + w.val) % 1024) % 1024 = w.val; omega

/-- The selected value array at row b·1024 + h, column w: the specification's value array. -/
theorem v11_at (x : Arg) (b : Fin 16) (h w : Fin 1024) :
    val_main_v11 (F := Ideal) x (ix2 (row b h) w) = sval x b h w := by
  have hb := b.isLt; have hh := h.isLt
  have h2 : val_main_v2 (F := Ideal) x (ix2 (row b h) w) = x (ix5 b (0 : Fin 1) (0 : Fin 3) h w) := by
    rw [val_main_v2_apply, val_main_v1_apply, val_main_v0_apply, idx_f0]
  have h5 : val_main_v5 (F := Ideal) x (ix2 (row b h) w) = x (ix5 b (0 : Fin 1) (2 : Fin 3) h w) := by
    rw [val_main_v5_apply, val_main_v4_apply, val_main_v3_apply, idx_f2]
  have hc : val_main_call0_v0 (F := Ideal) (ix2 (row b h) w) = if b.val * 1024 + h.val < 1024 then 1#1 else 0#1 := by
    rw [val_main_call0_v0_apply, val_main_v10_apply, val_main_v8_apply, val_main_v7_apply, val_main_v9_apply, val_main_c_apply]
    exact rowtest (b.val * 1024 + h.val) (by omega)
  rw [val_main_v11_apply, hc, val_main_v6_apply, h2, h5]
  unfold sval
  by_cases h0 : b.val = 0
  · have hb0 : b = 0 := Fin.ext h0
    rw [if_pos (by omega), if_pos h0, select_one, hb0]
    rfl
  · rw [if_neg (by omega), if_neg h0, select_zero]

/-- The source index over column w with row k inserted. -/
theorem lift_row (hR : S16384x1024.Reduces [0] S1024) (w : Fin 1024) (k : Fin 16384) :
    hR.lift (ix1 w) k = ix2 k w := by
  funext c
  refine Fin.ext ?_
  match c with
  | ⟨0, _⟩ => rfl
  | ⟨1, _⟩ => rfl

/-- The column minimum of the reference is the specification's. -/
theorem v12_at (x : Arg) (w : Fin 1024) : val_main_v12 (F := Ideal) x (ix1 w) = colMin x w := by
  have hR : S16384x1024.Reduces [0] S1024 := by decide
  unfold val_main_v12
  refine (Host.reduce_eq_fold_single _ _ _ reducesTo_S16384x1024_S1024_d0 hR h_S_ (ix1 w)).trans ?_
  refine (Cert.LibMinMax.fold_min_univ (ι := Fin 16384) (Ideal.ofBits .f32 0x7F800000#32)
    (fun k => val_main_v11 (F := Ideal) x (hR.lift (ix1 w) k))).trans ?_
  rw [Cert.LibMinMax.ofBits_posInf, min_eq_right le_top]
  unfold colMin rowMin
  exact iInf_rows _ _ (fun b h => (congrArg (val_main_v11 (F := Ideal) x) (lift_row hR w (row b h))).trans (v11_at x b h w))

/-- The column maximum of the reference is the specification's. -/
theorem v13_at (x : Arg) (w : Fin 1024) : val_main_v13 (F := Ideal) x (ix1 w) = colMax x w := by
  have hR : S16384x1024.Reduces [0] S1024 := by decide
  unfold val_main_v13
  refine (Host.reduce_eq_fold_single _ _ _ reducesTo_S16384x1024_S1024_d0 hR h_S_ (ix1 w)).trans ?_
  refine (Cert.LibMinMax.fold_max_univ (ι := Fin 16384) (Ideal.ofBits .f32 0xFF800000#32)
    (fun k => val_main_v11 (F := Ideal) x (hR.lift (ix1 w) k))).trans ?_
  rw [Cert.LibMinMax.ofBits_negInf, max_eq_right bot_le]
  unfold colMax rowMax
  exact iSup_rows _ _ (fun b h => (congrArg (val_main_v11 (F := Ideal) x) (lift_row hR w (row b h))).trans (v11_at x b h w))

/-- The last reshape reads row b·1024 + h, column w. -/
theorem idx_out (b : Fin 16) (z : Fin 1) (h w : Fin 1024) :
    idx_main_v25 (ix4 b z h w) = ix2 (row b h) w := by
  funext a
  refine Fin.ext ?_
  have hb := b.isLt; have hz := z.isLt; have hh := h.isLt; have hw := w.isLt
  match a with
  | ⟨0, _⟩ => show (((b.val * 1 + z.val) * 1024 + h.val) * 1024 + w.val) / 1024 = b.val * 1024 + h.val; omega
  | ⟨1, _⟩ => show (((b.val * 1 + z.val) * 1024 + h.val) * 1024 + w.val) % 1024 = w.val; omega

/-- The reference's last stage is the specification's result. -/
theorem ref_eq (x : Arg) : val_main_v25 (F := Ideal) x = result x := by
  funext j
  obtain ⟨b, z, h, w, rfl⟩ : ∃ b z h w, j = ix4 b z h w := ⟨j 0, j 1, j 2, j 3, eq_ix4 j⟩
  have i19 : idx_main_v19 (idx_main_v20 (ix2 (row b h) w)) = ix1 w := by
    funext a; match a with | ⟨0, _⟩ => rfl
  have i22 : idx_main_v22 (idx_main_v23 (ix2 (row b h) w)) = ix1 w := by
    funext a; match a with | ⟨0, _⟩ => rfl
  rw [val_main_v25_apply, idx_out, val_main_v24_apply, val_main_v21_apply, val_main_v20_apply, val_main_v19_apply, i19,
    val_main_v23_apply, val_main_v22_apply, i22, val_main_v18_apply, val_main_v16_apply, val_main_v14_apply,
    val_main_v15_apply, val_main_cst_1_apply, val_main_v17_apply, val_main_cst_2_apply, v11_at, v12_at, v13_at]
  rfl

end Cert.ReferenceIdeal.RefValue

end
-- ==== Proof.lean ====
/-
  The certificate: a frame-difference array normalised column by column, by two kernels against one host program.

  Kernel side. A first kernel walks the argument array in tiles of eight batches by 128 rows and keeps, per batch and
  column, a running minimum and a running maximum of the value array (batch 0: frame 2 minus frame 0; every other
  batch: frame 0), reset to +∞ and -∞ at a group's first tile. The host takes the minimum and the maximum of those over
  the sixteen batches. A second kernel recomputes each tile's values and stores `(v - lo) / scale`, the scale being
  `hi - lo`, or one where that is zero.

  Reference side. The host program forms the same value array as one [16384, 1024] matrix (row `1024 b + h`), takes each
  column's minimum and maximum over all rows, and normalises.

  Over the extended reals both are one function of the argument array (Proof/Spec.lean): a column's minimum over tiles,
  then batches, and its minimum over all rows at once are both the infimum of the same 16384 values, and likewise
  the maximum; subtraction, the zero test and the quotient are the same operations on both sides. The frames are the
  runs themselves: each program terminates without a fault and leaves the argument array as launched.
-/
import proofs.«171341_j63909113364757_2_alg».proof.Defs
import proofs.«171341_j63909113364757_2_alg».proof.Proof.Gen.Kernel
import proofs.«171341_j63909113364757_2_alg».proof.Proof.Gen.KernelIdeal
import proofs.«171341_j63909113364757_2_alg».proof.Proof.Gen.ReferenceIdeal
import proofs.«171341_j63909113364757_2_alg».proof.Proof.Gen.Pre_finite_inputs
import proofs.«171341_j63909113364757_2_alg».proof.Proof.KernelFrame
import proofs.«171341_j63909113364757_2_alg».proof.Proof.KernelIdealFrame
import proofs.«171341_j63909113364757_2_alg».proof.Proof.KernelValue
import proofs.«171341_j63909113364757_2_alg».proof.Proof.Reference
import Idealize.ShloMosaic.Adequacy
import Idealize.ShloMosaic.Init

noncomputable section

namespace Cert.Proof

open Idealize.ShloMosaic Idealize.SL.Sem

/-- The kernel as printed runs to the end and leaves its argument as launched. -/
theorem frame_k : Cert.frame_Kernel := fun m ρ _ => Cert.Kernel.GenP.frame m ρ

/-- So does its reading at the ideal values. -/
theorem frame_ki : Cert.frame_KernelIdeal := fun m ρ _ => Cert.KernelIdeal.GenP.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote nothing of the kernel. -/
theorem preserves : Cert.preserves_Kernel_KernelIdeal := trivial

/-- From argument arrays that agree, both programs end with the specification's result of that array. -/
theorem algebraic : Cert.algebraic_KernelIdeal_ReferenceIdeal := by
  intro m ρ m' ρ' _ hagree
  refine ⟨fun c => Cert.Norm.result (Cert.KernelIdeal.Value.arg m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, hagree c]
  exact Cert.ReferenceIdeal.RefValue.ref_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
